-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S512x11008 : Shape := ⟨2, ![512, 11008]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S32x4096 .f32) (main_arg1 : IVec S512x11008 32) (main_arg2 : FVec F S11008 .f32) (main_arg3 : FVec F S11008 .f32) (main_arg4 : FVec F S11008 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S32x4096 : Shape := ⟨2, ![32, 4096]⟩
abbrev S512x11008 : Shape := ⟨2, ![512, 11008]⟩
abbrev S11008 : Shape := ⟨1, ![11008]⟩
abbrev S32x512x8 : Shape := ⟨3, ![32, 512, 8]⟩
abbrev S8x32x512 : Shape := ⟨3, ![8, 32, 512]⟩
abbrev S_ : Shape := ⟨0, ![]⟩
abbrev S32 : Shape := ⟨1, ![32]⟩
abbrev S32x1 : Shape := ⟨2, ![32, 1]⟩
abbrev S1x11008 : Shape := ⟨2, ![1, 11008]⟩
abbrev S32x11008 : Shape := ⟨2, ![32, 11008]⟩
abbrev S512x1408 : Shape := ⟨2, ![512, 1408]⟩
abbrev S1x1408 : Shape := ⟨2, ![1, 1408]⟩
abbrev S32x1408 : Shape := ⟨2, ![32, 1408]⟩
abbrev S128x1408 : Shape := ⟨2, ![128, 1408]⟩
abbrev S1x32x128 : Shape := ⟨3, ![1, 32, 128]⟩
abbrev S32x128 : Shape := ⟨2, ![32, 128]⟩

abbrev nBuf : Space → Nat
  | .hbm => 14
  | .vmem => 12
  | .smem => 0
  | _ => 0

abbrev bufTy : (tb : Table) → Fin (tcTables nBuf tb) → BufTy
  | .hbm, ⟨0, _⟩ => ⟨S32x4096, .f32⟩
  | .hbm, ⟨1, _⟩ => ⟨S512x11008, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S32x512x8, .f32⟩
  | .hbm, ⟨6, _⟩ => ⟨S8x32x512, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S1x11008, .f32⟩
  | .hbm, ⟨11, _⟩ => ⟨S1x11008, .f32⟩
  | .hbm, ⟨12, _⟩ => ⟨S1x11008, .f32⟩
  | .hbm, ⟨13, _⟩ => ⟨S32x11008, .f32⟩
  | .local _ .vmem, ⟨0, _⟩ => ⟨S512x1408, .i32⟩
  | .local _ .vmem, ⟨1, _⟩ => ⟨S512x1408, .i32⟩
  | .local _ .vmem, ⟨2, _⟩ => ⟨S8x32x512, .f32⟩
  | .local _ .vmem, ⟨3, _⟩ => ⟨S32x1, .f32⟩
  | .local _ .vmem, ⟨4, _⟩ => ⟨S1x1408, .f32⟩
  | .local _ .vmem, ⟨5, _⟩ => ⟨S1x1408, .f32⟩
  | .local _ .vmem, ⟨6, _⟩ => ⟨S1x1408, .f32⟩
  | .local _ .vmem, ⟨7, _⟩ => ⟨S1x1408, .f32⟩
  | .local _ .vmem, ⟨8, _⟩ => ⟨S1x1408, .f32⟩
  | .local _ .vmem, ⟨9, _⟩ => ⟨S1x1408, .f32⟩
  | .local _ .vmem, ⟨10, _⟩ => ⟨S32x1408, .f32⟩
  | .local _ .vmem, ⟨11, _⟩ => ⟨S32x1408, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 2 → Nat :=
  let c128_i32 : BitVec 32 := 128#32
  let v1 : BitVec 32 := Scalar.muli c0_i32 c128_i32
  let v2 : BitVec 32 := v1
  let v3 : Index := Scalar.indexCast v2
  let c0 : Index := 0#32
  ![v3.toNat, 0]
def k0_off2 (c0_i32 : BitVec 32) : Fin 3 → Nat :=
  let c0_2 : Index := 0#32
  let c0_3 : Index := 0#32
  let c128_i32 : BitVec 32 := 128#32
  let v1 : BitVec 32 := Scalar.muli c0_i32 c128_i32
  let v2 : BitVec 32 := v1
  let v11 : Index := Scalar.indexCast v2
  ![0, 0, v11.toNat]
def k0_off3 (c0_i32 : BitVec 32) : Fin 3 → Nat :=
  let c1 : Index := 1#32
  let c0_6 : Index := 0#32
  let c128_i32 : BitVec 32 := 128#32
  let v1 : BitVec 32 := Scalar.muli c0_i32 c128_i32
  let v2 : BitVec 32 := v1
  let v21 : Index := Scalar.indexCast v2
  ![1, 0, v21.toNat]
def k0_off4 (c0_i32 : BitVec 32) : Fin 3 → Nat :=
  let c2 : Index := 2#32
  let c0_9 : Index := 0#32
  let c128_i32 : BitVec 32 := 128#32
  let v1 : BitVec 32 := Scalar.muli c0_i32 c128_i32
  let v2 : BitVec 32 := v1
  let v31 : Index := Scalar.indexCast v2
  ![2, 0, v31.toNat]
def k0_off5 (c0_i32 : BitVec 32) : Fin 3 → Nat :=
  let c3 : Index := 3#32
  let c0_12 : Index := 0#32
  let c128_i32 : BitVec 32 := 128#32
  let v1 : BitVec 32 := Scalar.muli c0_i32 c128_i32
  let v2 : BitVec 32 := v1
  let v41 : Index := Scalar.indexCast v2
  ![3, 0, v41.toNat]
def k0_off6 (c0_i32 : BitVec 32) : Fin 3 → Nat :=
  let c4 : Index := 4#32
  let c0_15 : Index := 0#32
  let c128_i32 : BitVec 32 := 128#32
  let v1 : BitVec 32 := Scalar.muli c0_i32 c128_i32
  let v2 : BitVec 32 := v1
  let v51 : Index := Scalar.indexCast v2
  ![4, 0, v51.toNat]
def k0_off7 (c0_i32 : BitVec 32) : Fin 3 → Nat :=
  let c5 : Index := 5#32
  let c0_18 : Index := 0#32
  let c128_i32 : BitVec 32 := 128#32
  let v1 : BitVec 32 := Scalar.muli c0_i32 c128_i32
  let v2 : BitVec 32 := v1
  let v61 : Index := Scalar.indexCast v2
  ![5, 0, v61.toNat]
def k0_off8 (c0_i32 : BitVec 32) : Fin 3 → Nat :=
  let c6 : Index := 6#32
  let c0_21 : Index := 0#32
  let c128_i32 : BitVec 32 := 128#32
  let v1 : BitVec 32 := Scalar.muli c0_i32 c128_i32
  let v2 : BitVec 32 := v1
  let v71 : Index := Scalar.indexCast v2
  ![6, 0, v71.toNat]
def k0_off9 (c0_i32 : BitVec 32) : Fin 3 → Nat :=
  let c7 : Index := 7#32
  let c0_24 : Index := 0#32
  let c128_i32 : BitVec 32 := 128#32
  let v1 : BitVec 32 := Scalar.muli c0_i32 c128_i32
  let v2 : BitVec 32 := v1
  let v81 : Index := Scalar.indexCast v2
  ![7, 0, v81.toNat]
def k0_mult2 : BitVec 32 :=
  let c1_i32 : BitVec 32 := 1#32
  let c128_i32_26 : BitVec 32 := 128#32
  let v87 : BitVec 32 := Scalar.muli c1_i32 c128_i32_26
  v87
def k0_mult3 : BitVec 32 :=
  let c2_i32 : BitVec 32 := 2#32
  let c128_i32_69 : BitVec 32 := 128#32
  let v173 : BitVec 32 := Scalar.muli c2_i32 c128_i32_69
  v173
def k0_mult4 : BitVec 32 :=
  let c3_i32 : BitVec 32 := 3#32
  let c128_i32_112 : BitVec 32 := 128#32
  let v259 : BitVec 32 := Scalar.muli c3_i32 c128_i32_112
  v259
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1408 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x4096_S32x512x8 : S32x4096.ShapeCasts S32x512x8
  transposes_S32x512x8_S8x32x512_2_0_1 : S32x512x8.Transposes [2, 0, 1] S8x32x512
  reducesTo_S32x4096_S32_d1 : S32x4096.ReducesTo [1] S32
  h_S_ : 0 < S_.numel
  bcast_S32_S32x1_0 : S32.BroadcastsInDim S32x1 (![0] : Fin 1 → Fin S32x1.rank)
  shapeCasts_S11008_S1x11008 : S11008.ShapeCasts S1x11008
  h_S128x1408 : 0 < S128x1408.numel
  h_S1x32x128 : 0 < S1x32x128.numel
  shapeCasts_S1x32x128_S32x128 : S1x32x128.ShapeCasts S32x128
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S1x1408_S32x1408 : S1x1408.Broadcasts S32x1408
  broadcasts_S32x1_S32x1408 : S32x1.Broadcasts S32x1408
  inb_S32x1408_S32x1408_0_0 : ∀ a, (![0, 0] : Fin 2 → Nat) a + S32x1408.size a ≤ S32x1408.size a
  h_S32x1408 : 0 < S32x1408.numel
  dot_S32x128_S128x1408_S32x1408_1_0_0_1_n_n_wf : DotDims.WF S32x128 S128x1408 S32x1408 [1] [0] [0] [1] [] []
  hrank0 : 0 < grid0.rank
  k0_mult1_dvd : 128 ∣ k0_mult1.toNat
  k0_off1_inb : ∀ (r : Fin 4), ∀ a, (k0_off1 (BitVec.ofNat 32 r.val)) a + S128x1408.size a ≤ S512x1408.size a
  k0_off2_inb : ∀ (r : Fin 4), ∀ a, (k0_off2 (BitVec.ofNat 32 r.val)) a + S1x32x128.size a ≤ S8x32x512.size a
  k0_off3_inb : ∀ (r : Fin 4), ∀ a, (k0_off3 (BitVec.ofNat 32 r.val)) a + S1x32x128.size a ≤ S8x32x512.size a
  k0_off4_inb : ∀ (r : Fin 4), ∀ a, (k0_off4 (BitVec.ofNat 32 r.val)) a + S1x32x128.size a ≤ S8x32x512.size a
  k0_off5_inb : ∀ (r : Fin 4), ∀ a, (k0_off5 (BitVec.ofNat 32 r.val)) a + S1x32x128.size a ≤ S8x32x512.size a
  k0_off6_inb : ∀ (r : Fin 4), ∀ a, (k0_off6 (BitVec.ofNat 32 r.val)) a + S1x32x128.size a ≤ S8x32x512.size a
  k0_off7_inb : ∀ (r : Fin 4), ∀ a, (k0_off7 (BitVec.ofNat 32 r.val)) a + S1x32x128.size a ≤ S8x32x512.size a
  k0_off8_inb : ∀ (r : Fin 4), ∀ a, (k0_off8 (BitVec.ofNat 32 r.val)) a + S1x32x128.size a ≤ S8x32x512.size a
  k0_off9_inb : ∀ (r : Fin 4), ∀ a, (k0_off9 (BitVec.ofNat 32 r.val)) a + S1x32x128.size a ≤ S8x32x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1408.size a < S512x11008.size a
  hwx0_0 : ∀ i : grid0.Coords, EltTy.bits .i32 = 32 ∨ (Rect.unit (s := S512x11008) (fun a => cc0_transform_0 i a * S512x1408.size a) (fun a => (Pipeline.Clip.of (cc0_transform_0 i a) (S512x1408.size a) (S512x11008.size a)).extent (S512x1408.size a)) fun a => Pipeline.Clip.inb (Pipeline.Clip.ok_of (hstart0_0 i a))).WholeWords (EltTy.packing .i32)
  hwxs0_0 : ∀ i : grid0.Coords, EltTy.bits .i32 = 32 ∨ (Rect.unit (s := S512x1408) (fun _ => 0) (fun a => (Pipeline.Clip.of (cc0_transform_0 i a) (S512x1408.size a) (S512x11008.size a)).extent (S512x1408.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32x512.size a ≤ S8x32x512.size a
  hwx0_1 : ∀ i : grid0.Coords, EltTy.bits .f32 = 32 ∨ (Rect.block (s := S8x32x512) S8x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1408.size a < S1x11008.size a
  hwx0_3 : ∀ i : grid0.Coords, EltTy.bits .f32 = 32 ∨ (Rect.unit (s := S1x11008) (fun a => cc0_transform_3 i a * S1x1408.size a) (fun a => (Pipeline.Clip.of (cc0_transform_3 i a) (S1x1408.size a) (S1x11008.size a)).extent (S1x1408.size a)) fun a => Pipeline.Clip.inb (Pipeline.Clip.ok_of (hstart0_3 i a))).WholeWords (EltTy.packing .f32)
  hwxs0_3 : ∀ i : grid0.Coords, EltTy.bits .f32 = 32 ∨ (Rect.unit (s := S1x1408) (fun _ => 0) (fun a => (Pipeline.Clip.of (cc0_transform_3 i a) (S1x1408.size a) (S1x11008.size a)).extent (S1x1408.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1408.size a < S1x11008.size a
  hwx0_4 : ∀ i : grid0.Coords, EltTy.bits .f32 = 32 ∨ (Rect.unit (s := S1x11008) (fun a => cc0_transform_4 i a * S1x1408.size a) (fun a => (Pipeline.Clip.of (cc0_transform_4 i a) (S1x1408.size a) (S1x11008.size a)).extent (S1x1408.size a)) fun a => Pipeline.Clip.inb (Pipeline.Clip.ok_of (hstart0_4 i a))).WholeWords (EltTy.packing .f32)
  hwxs0_4 : ∀ i : grid0.Coords, EltTy.bits .f32 = 32 ∨ (Rect.unit (s := S1x1408) (fun _ => 0) (fun a => (Pipeline.Clip.of (cc0_transform_4 i a) (S1x1408.size a) (S1x11008.size a)).extent (S1x1408.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x1408.size a < S1x11008.size a
  hwx0_5 : ∀ i : grid0.Coords, EltTy.bits .f32 = 32 ∨ (Rect.unit (s := S1x11008) (fun a => cc0_transform_5 i a * S1x1408.size a) (fun a => (Pipeline.Clip.of (cc0_transform_5 i a) (S1x1408.size a) (S1x11008.size a)).extent (S1x1408.size a)) fun a => Pipeline.Clip.inb (Pipeline.Clip.ok_of (hstart0_5 i a))).WholeWords (EltTy.packing .f32)
  hwxs0_5 : ∀ i : grid0.Coords, EltTy.bits .f32 = 32 ∨ (Rect.unit (s := S1x1408) (fun _ => 0) (fun a => (Pipeline.Clip.of (cc0_transform_5 i a) (S1x1408.size a) (S1x11008.size a)).extent (S1x1408.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S32x1408.size a < S32x11008.size a
  hwx0_6 : ∀ i : grid0.Coords, EltTy.bits .f32 = 32 ∨ (Rect.unit (s := S32x11008) (fun a => cc0_transform_6 i a * S32x1408.size a) (fun a => (Pipeline.Clip.of (cc0_transform_6 i a) (S32x1408.size a) (S32x11008.size a)).extent (S32x1408.size a)) fun a => Pipeline.Clip.inb (Pipeline.Clip.ok_of (hstart0_6 i a))).WholeWords (EltTy.packing .f32)
  hwxs0_6 : ∀ i : grid0.Coords, EltTy.bits .f32 = 32 ∨ (Rect.unit (s := S32x1408) (fun _ => 0) (fun a => (Pipeline.Clip.of (cc0_transform_6 i a) (S32x1408.size a) (S32x11008.size a)).extent (S32x1408.size a)) fun a => (Nat.zero_add _).trans_le (Pipeline.Clip.extent_le (Pipeline.Clip.ok_of (hstart0_6 i a)))).WholeWords (EltTy.packing .f32)

variable [Facts₀]

def dot_S32x128_S128x1408_S32x1408_1_0_0_1_n_n : DotDims S32x128 S128x1408 S32x1408 where
  lhsContracting := [1]
  rhsContracting := [0]
  lhsNonContracting := [0]
  rhsNonContracting := [1]
  lhsBatch := []
  rhsBatch := []
  wf := dot_S32x128_S128x1408_S32x1408_1_0_0_1_n_n_wf

abbrev win0_0 : Pipeline.Window sig grid0 :=
  Pipeline.Window.ofSpecClip (Memref.whole main_arg1) S512x1408.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v4) S1x1408.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v5) S1x1408.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v6) S1x1408.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v7) S32x1408.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x4096 : Shape := ⟨2, ![32, 4096]⟩
abbrev S512x11008 : Shape := ⟨2, ![512, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S1x11008 : Shape := ⟨2, ![1, 11008]⟩
abbrev S32x11008 : Shape := ⟨2, ![32, 11008]⟩

abbrev nBuf : Space → Nat
  | .hbm => 29
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S512x11008, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S1x11008, .f32⟩
  | .hbm, ⟨19, _⟩ => ⟨S4096x11008, .f32⟩
  | .hbm, ⟨20, _⟩ => ⟨S4096x11008, .f32⟩
  | .hbm, ⟨21, _⟩ => ⟨S4096x11008, .f32⟩
  | .hbm, ⟨22, _⟩ => ⟨S1x11008, .f32⟩
  | .hbm, ⟨23, _⟩ => ⟨S4096x11008, .f32⟩
  | .hbm, ⟨24, _⟩ => ⟨S4096x11008, .f32⟩
  | .hbm, ⟨25, _⟩ => ⟨S32x11008, .f32⟩
  | .hbm, ⟨26, _⟩ => ⟨S1x11008, .f32⟩
  | .hbm, ⟨27, _⟩ => ⟨S32x11008, .f32⟩
  | .hbm, ⟨28, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S1x11008_S32x11008_0_1 : S1x11008.BroadcastsInDim S32x11008 (![0, 1] : Fin 2 → Fin S32x11008.rank)
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Fin

/-!
The mathematics of a 4-bit packed dequantising matmul, free of any program.

A packed word holds eight 4-bit values ("nibbles"); nibble `j` of word `w` is
`(w >>ₛ 4j) &&& 15`, an integer in `0 … 15`, read as a real `qv w j`. With `K = 512` words per column the
dequantised weight at row `k = 8·(k / 8) + k % 8` and column `n` is `s n · qv (qw (k / 8, n)) (k % 8) − z n`.

* `Gref`  : the plain form  `(∑ₖ x (p,k) · (s n · q (k,n) − z n)) + b n`.
* `kerVal`: the factored form `acc (p,n) · s n − xs p · z n + b n`, where `acc` sums `x · q` in four chunks of 128
  words, eight nibble planes per chunk, in the left-nested order written out below, over a transposed copy `XT` of `x`
  (`XT (j, p, w) = x (p, 8w + j)`) and a precomputed row sum `XS`. It is stated for any number `N` of columns,
  so that it can be read on a tile of columns and on the whole array alike; `kerVal_col` says an entry depends on the
  packed words, scales, zero points and biases of ITS OWN COLUMN only.
* `Gker`  : `kerVal` on the whole arrays. `ker_eq_ref`: on real inputs the two forms agree (distributivity and
  a regrouping of a finite sum).
-/

noncomputable section

namespace Cert.Spec

open Idealize.ShloMosaic Idealize.ShloMosaic.ValueIdx

/-- Nibble `j` of the packed word `w`: shift right (sign-filling) by `4j`, keep the low four bits. -/
def nib (w : BitVec 32) (j : Fin 8) : BitVec 32 := IntOp.andi (w.sshiftRight' (BitVec.ofNat 32 (4 * j.val))) 15#32

/-- That nibble as an extended real (always a real: an integer). -/
def qv (w : BitVec 32) (j : Fin 8) : EReal := (((nib w j).toInt : ℝ) : EReal)

variable {N : Nat}

/-- One nibble plane of one chunk: `∑_{kk < 128} XT (j, p, 128c + kk) · q_j (128c + kk, q)`. -/
def dotc (Q : (⟨2, ![512, N]⟩ : Shape).Idx → BitVec 32) (XT : (⟨3, ![8, 32, 512]⟩ : Shape).Idx → EReal)
    (p : Fin 32) (q : Fin N) (c : Fin 4) (j : Fin 8) : EReal :=
  ∑ kk : Fin 128, XT (ix3 j p (⟨128 * c.val + kk.val, by have := c.isLt; have := kk.isLt; omega⟩ : Fin 512))
    * qv (Q (ix2 (⟨128 * c.val + kk.val, by have := c.isLt; have := kk.isLt; omega⟩ : Fin 512) q)) j

/-- One chunk: its eight planes added in order into zero. -/
def chunkv (Q : (⟨2, ![512, N]⟩ : Shape).Idx → BitVec 32) (XT : (⟨3, ![8, 32, 512]⟩ : Shape).Idx → EReal)
    (p : Fin 32) (q : Fin N) (c : Fin 4) : EReal :=
  (((((((0 + dotc Q XT p q c 0) + dotc Q XT p q c 1) + dotc Q XT p q c 2) + dotc Q XT p q c 3)
    + dotc Q XT p q c 4) + dotc Q XT p q c 5) + dotc Q XT p q c 6) + dotc Q XT p q c 7

/-- The accumulator: the four chunks added in order into zero. -/
def accv (Q : (⟨2, ![512, N]⟩ : Shape).Idx → BitVec 32) (XT : (⟨3, ![8, 32, 512]⟩ : Shape).Idx → EReal)
    (p : Fin 32) (q : Fin N) : EReal :=
  (((0 + chunkv Q XT p q 0) + chunkv Q XT p q 1) + chunkv Q XT p q 2) + chunkv Q XT p q 3

/-- The factored form on `N` columns: `acc · s − xs · z + b`. -/
def kerVal (N : Nat) (Q : (⟨2, ![512, N]⟩ : Shape).Idx → BitVec 32) (XT : (⟨3, ![8, 32, 512]⟩ : Shape).Idx → EReal)
    (XS : (⟨2, ![32, 1]⟩ : Shape).Idx → EReal) (S Z B : (⟨2, ![1, N]⟩ : Shape).Idx → EReal) :
    (⟨2, ![32, N]⟩ : Shape).Idx → EReal := fun i =>
  accv Q XT (i 0) (i 1) * S (ix2 (0 : Fin 1) (i 1)) - XS (ix2 (i 0) (0 : Fin 1)) * Z (ix2 (0 : Fin 1) (i 1)) + B (ix2 (0 : Fin 1) (i 1))

/-- COLUMN-LOCALITY: an entry of the factored form reads the packed words, the scale, the zero point and the bias of its own
    column only. So a tile of columns and the whole array give one value at corresponding columns, whatever else the tile
    holds. -/
theorem kerVal_col {N N' : Nat} (Q : (⟨2, ![512, N]⟩ : Shape).Idx → BitVec 32) (Q' : (⟨2, ![512, N']⟩ : Shape).Idx → BitVec 32)
    (XT : (⟨3, ![8, 32, 512]⟩ : Shape).Idx → EReal) (XS : (⟨2, ![32, 1]⟩ : Shape).Idx → EReal)
    (S Z B : (⟨2, ![1, N]⟩ : Shape).Idx → EReal) (S' Z' B' : (⟨2, ![1, N']⟩ : Shape).Idx → EReal)
    (p : Fin 32) (q : Fin N) (q' : Fin N')
    (hQ : ∀ r : Fin 512, Q (ix2 r q) = Q' (ix2 r q'))
    (hS : S (ix2 (0 : Fin 1) q) = S' (ix2 (0 : Fin 1) q')) (hZ : Z (ix2 (0 : Fin 1) q) = Z' (ix2 (0 : Fin 1) q'))
    (hB : B (ix2 (0 : Fin 1) q) = B' (ix2 (0 : Fin 1) q')) :
    kerVal N Q XT XS S Z B (ix2 p q) = kerVal N' Q' XT XS S' Z' B' (ix2 p q') := by
  have hd : ∀ c j, dotc Q XT p q c j = dotc Q' XT p q' c j := fun c j => by
    unfold dotc; exact Finset.sum_congr rfl fun kk _ => by rw [hQ]
  have hc : ∀ c, chunkv Q XT p q c = chunkv Q' XT p q' c := fun c => by
    unfold chunkv; simp only [hd]
  show accv Q XT p q * S (ix2 0 q) - XS (ix2 p 0) * Z (ix2 0 q) + B (ix2 0 q)
    = accv Q' XT p q' * S' (ix2 0 q') - XS (ix2 p 0) * Z' (ix2 0 q') + B' (ix2 0 q')
  unfold accv; rw [hS, hZ, hB]; simp only [hc]

/-- The transposed copy the wrapper builds: `xt x (j, p, w) = x (p, 8w + j)`. -/
def xt (x : (⟨2, ![32, 4096]⟩ : Shape).Idx → EReal) : (⟨3, ![8, 32, 512]⟩ : Shape).Idx → EReal := fun y =>
  x (ix2 (⟨(y 1).val, (y 1).isLt⟩ : Fin 32) (⟨(y 2).val * 8 + (y 0).val, by
    have h2 : (y 2).val < 512 := (y 2).isLt; have h0 : (y 0).val < 8 := (y 0).isLt; omega⟩ : Fin 4096))

/-- The row sums the wrapper builds, as a column: `xs x (p, 0) = ∑ₖ x (p, k)`. -/
def xs (x : (⟨2, ![32, 4096]⟩ : Shape).Idx → EReal) : (⟨2, ![32, 1]⟩ : Shape).Idx → EReal := fun y =>
  ∑ k : Fin 4096, x (ix2 (⟨(y 0).val, (y 0).isLt⟩ : Fin 32) k)

/-- A vector as a one-row matrix. -/
def row (v : (⟨1, ![11008]⟩ : Shape).Idx → EReal) : (⟨2, ![1, 11008]⟩ : Shape).Idx → EReal := fun y =>
  v (ix1 (⟨(y 1).val, (y 1).isLt⟩ : Fin 11008))

/-- The kernel's whole-array function of the five arguments. -/
def Gker (x : (⟨2, ![32, 4096]⟩ : Shape).Idx → EReal) (qw : (⟨2, ![512, 11008]⟩ : Shape).Idx → BitVec 32)
    (s z b : (⟨1, ![11008]⟩ : Shape).Idx → EReal) : (⟨2, ![32, 11008]⟩ : Shape).Idx → EReal :=
  kerVal 11008 qw (xt x) (xs x) (row s) (row z) (row b)

/-- The reference's whole-array function: `(∑ₖ x (p,k) · (s n · q (k,n) − z n)) + b n`, the weight row `k` being nibble
    `k % 8` of word `k / 8`. -/
def Gref (x : (⟨2, ![32, 4096]⟩ : Shape).Idx → EReal) (qw : (⟨2, ![512, 11008]⟩ : Shape).Idx → BitVec 32)
    (s z b : (⟨1, ![11008]⟩ : Shape).Idx → EReal) : (⟨2, ![32, 11008]⟩ : Shape).Idx → EReal := fun i =>
  (∑ k : Fin 4096, x (ix2 (⟨(i 0).val, (i 0).isLt⟩ : Fin 32) k)
      * (s (ix1 (⟨(i 1).val, (i 1).isLt⟩ : Fin 11008))
          * qv (qw (ix2 (⟨k.val / 8, by have := k.isLt; omega⟩ : Fin 512) (⟨(i 1).val, (i 1).isLt⟩ : Fin 11008)))
              (⟨k.val % 8, by omega⟩ : Fin 8)
        - z (ix1 (⟨(i 1).val, (i 1).isLt⟩ : Fin 11008))))
    + b (ix1 (⟨(i 1).val, (i 1).isLt⟩ : Fin 11008))

end Cert.Spec

end
-- ==== Proof.Algebra.lean ====
import proofs.«408666_j44702019617444_3_alg».proof.Proof.Spec
import Mathlib.Data.EReal.Basic
import Mathlib.Data.EReal.Operations
import Mathlib.Algebra.BigOperators.Ring.Finset
import Mathlib.Algebra.BigOperators.Fin
import Mathlib.Tactic.Ring

noncomputable section

namespace Cert.Spec

open Idealize.ShloMosaic Idealize.ShloMosaic.ValueIdx

/-- The coercion of the reals into the extended reals commutes with a finite sum (by induction on the index set, from
    additivity of the coercion). -/
theorem coe_fsum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The position k = (128·c + kk)·8 + j of nibble plane j of word kk of chunk c: a bijection from the triples
    (c, j, kk) onto the 4096 rows. Its inverse reads c = k / 1024, j = k % 8, kk = (k / 8) % 128. -/
def regroup : Fin 4 × Fin 8 × Fin 128 ≃ Fin 4096 where
  toFun t := ⟨(128 * t.1.val + t.2.2.val) * 8 + t.2.1.val, by
    have h1 := t.1.isLt; have h2 := t.2.1.isLt; have h3 := t.2.2.isLt; omega⟩
  invFun k := (⟨k.val / 1024, by have := k.isLt; omega⟩, ⟨k.val % 8, by omega⟩, ⟨(k.val / 8) % 128, by omega⟩)
  left_inv t := by
    obtain ⟨c, j, kk⟩ := t
    have h1 := c.isLt; have h2 := j.isLt; have h3 := kk.isLt
    refine Prod.ext (Fin.ext ?_) (Prod.ext (Fin.ext ?_) (Fin.ext ?_))
    · show ((128 * c.val + kk.val) * 8 + j.val) / 1024 = c.val
      omega
    · show ((128 * c.val + kk.val) * 8 + j.val) % 8 = j.val
      omega
    · show (((128 * c.val + kk.val) * 8 + j.val) / 8) % 128 = kk.val
      omega
  right_inv k := by
    have h := k.isLt
    refine Fin.ext ?_
    show (128 * (k.val / 1024) + (k.val / 8) % 128) * 8 + k.val % 8 = k.val
    omega

/-- A sum over the 4096 rows is the triple sum over chunks, nibble planes and words of a chunk. -/
theorem sum_regroup {M : Type*} [AddCommMonoid M] (f : Fin 4096 → M) :
    ∑ k, f k = ∑ c : Fin 4, ∑ j : Fin 8, ∑ kk : Fin 128,
      f ⟨(128 * c.val + kk.val) * 8 + j.val, by have h1 := c.isLt; have h2 := j.isLt; have h3 := kk.isLt; omega⟩ := by
  rw [← Equiv.sum_comp regroup f, Fintype.sum_prod_type]
  refine Finset.sum_congr rfl fun c _ => ?_
  rw [Fintype.sum_prod_type]
  rfl

/-- The identity over the reals: distributivity, and the regrouping of the sum over the rows. X is one row of the
    left factor, Qr w j nibble j of word w of one column, S, Z, B that column's scale, zero point, bias. -/
theorem core_real (X : Fin 4096 → ℝ) (Qr : Fin 512 → Fin 8 → ℝ) (S Z B : ℝ) :
    (∑ c : Fin 4, ∑ j : Fin 8, ∑ kk : Fin 128,
        X ⟨(128 * c.val + kk.val) * 8 + j.val, by have h1 := c.isLt; have h2 := j.isLt; have h3 := kk.isLt; omega⟩
          * Qr ⟨128 * c.val + kk.val, by have h1 := c.isLt; have h3 := kk.isLt; omega⟩ j) * S
      - (∑ k, X k) * Z + B
    = (∑ k : Fin 4096, X k * (S * Qr ⟨k.val / 8, by have := k.isLt; omega⟩ ⟨k.val % 8, by omega⟩ - Z)) + B := by
  have h1 : ∑ k : Fin 4096, X k * (S * Qr ⟨k.val / 8, by have := k.isLt; omega⟩ ⟨k.val % 8, by omega⟩ - Z)
      = S * (∑ k : Fin 4096, X k * Qr ⟨k.val / 8, by have := k.isLt; omega⟩ ⟨k.val % 8, by omega⟩)
        - Z * ∑ k, X k := by
    rw [Finset.mul_sum, Finset.mul_sum, ← Finset.sum_sub_distrib]
    exact Finset.sum_congr rfl fun k _ => by ring
  have h2 : ∑ k : Fin 4096, X k * Qr ⟨k.val / 8, by have := k.isLt; omega⟩ ⟨k.val % 8, by omega⟩
      = ∑ c : Fin 4, ∑ j : Fin 8, ∑ kk : Fin 128,
        X ⟨(128 * c.val + kk.val) * 8 + j.val, by have h1 := c.isLt; have h2 := j.isLt; have h3 := kk.isLt; omega⟩
          * Qr ⟨128 * c.val + kk.val, by have h1 := c.isLt; have h3 := kk.isLt; omega⟩ j := by
    rw [sum_regroup]
    refine Finset.sum_congr rfl fun c _ => Finset.sum_congr rfl fun j _ => Finset.sum_congr rfl fun kk _ => ?_
    have hc := c.isLt; have hj := j.isLt; have hk := kk.isLt
    have e1 : (⟨((128 * c.val + kk.val) * 8 + j.val) / 8, by omega⟩ : Fin 512) = ⟨128 * c.val + kk.val, by omega⟩ :=
      Fin.ext (by show ((128 * c.val + kk.val) * 8 + j.val) / 8 = 128 * c.val + kk.val; omega)
    have e2 : (⟨((128 * c.val + kk.val) * 8 + j.val) % 8, by omega⟩ : Fin 8) = j :=
      Fin.ext (by show ((128 * c.val + kk.val) * 8 + j.val) % 8 = j.val; omega)
    show X _ * Qr ⟨((128 * c.val + kk.val) * 8 + j.val) / 8, _⟩ ⟨((128 * c.val + kk.val) * 8 + j.val) % 8, _⟩ = _
    rw [e1, e2]
  rw [h1, h2]
  ring

/-- The same identity between extended reals all of whose entries are coerced reals: both sides are the coercions of
    the two sides of the real identity, the coercion commuting with sums, products and differences. -/
theorem core_ereal (X : Fin 4096 → ℝ) (Qr : Fin 512 → Fin 8 → ℝ) (S Z B : ℝ) :
    (∑ c : Fin 4, ∑ j : Fin 8, ∑ kk : Fin 128,
        ((X ⟨(128 * c.val + kk.val) * 8 + j.val, by
            have h1 := c.isLt; have h2 := j.isLt; have h3 := kk.isLt; omega⟩ : ℝ) : EReal)
          * ((Qr ⟨128 * c.val + kk.val, by have h1 := c.isLt; have h3 := kk.isLt; omega⟩ j : ℝ) : EReal)) * (S : EReal)
      - (∑ k, (X k : EReal)) * (Z : EReal) + (B : EReal)
    = (∑ k : Fin 4096, (X k : EReal)
        * ((S : EReal) * ((Qr ⟨k.val / 8, by have := k.isLt; omega⟩ ⟨k.val % 8, by omega⟩ : ℝ) : EReal) - (Z : EReal)))
      + (B : EReal) := by
  simp only [← EReal.coe_mul, ← coe_fsum, ← EReal.coe_sub, ← EReal.coe_add]
  exact congrArg _ (core_real X Qr S Z B)

/-- A chunk is the sum of its eight nibble planes. -/
theorem chunkv_eq_sum {N : Nat} (Q : (⟨2, ![512, N]⟩ : Shape).Idx → BitVec 32)
    (XT : (⟨3, ![8, 32, 512]⟩ : Shape).Idx → EReal) (p : Fin 32) (q : Fin N) (c : Fin 4) :
    chunkv Q XT p q c = ∑ j : Fin 8, dotc Q XT p q c j := by
  unfold chunkv
  rw [Fin.sum_univ_eight, zero_add]

/-- The accumulator is the sum of its four chunks. -/
theorem accv_eq_sum {N : Nat} (Q : (⟨2, ![512, N]⟩ : Shape).Idx → BitVec 32)
    (XT : (⟨3, ![8, 32, 512]⟩ : Shape).Idx → EReal) (p : Fin 32) (q : Fin N) :
    accv Q XT p q = ∑ c : Fin 4, ∑ j : Fin 8, dotc Q XT p q c j := by
  unfold accv
  rw [Fin.sum_univ_four, zero_add]
  simp only [chunkv_eq_sum]

/-- ON REAL INPUTS THE TWO FORMS AGREE. With every entry of `x`, `s`, `z`, `b` a real (the nibbles always are),
    `∑ₖ x·(s·q − z) = s·∑ₖ x·q − z·∑ₖ x` by distributivity over the reals, and the sum over `k < 4096` regroups as
    `k = 8·(128c + kk) + j` over chunks `c < 4`, nibble planes `j < 8` and words `kk < 128`. (Over the extended reals
    without finiteness distributivity fails; this is where the precondition is used.) -/
theorem ker_eq_ref (x : (⟨2, ![32, 4096]⟩ : Shape).Idx → EReal) (qw : (⟨2, ![512, 11008]⟩ : Shape).Idx → BitVec 32)
    (s z b : (⟨1, ![11008]⟩ : Shape).Idx → EReal)
    (hx : ∀ i, ∃ r : ℝ, x i = (r : EReal)) (hs : ∀ i, ∃ r : ℝ, s i = (r : EReal))
    (hz : ∀ i, ∃ r : ℝ, z i = (r : EReal)) (hb : ∀ i, ∃ r : ℝ, b i = (r : EReal)) :
    Gker x qw s z b = Gref x qw s z b := by
  choose fx hfx using hx
  choose fs hfs using hs
  choose fz hfz using hz
  choose fb hfb using hb
  funext i
  obtain ⟨p, n, rfl⟩ : ∃ (p : Fin 32) (n : Fin 11008), i = ix2 p n := ⟨i 0, i 1, eq_ix2 i⟩
  -- the entry at row p, column n, both forms written on the coordinates
  show accv qw (xt x) p n * s (ix1 n) - (∑ k : Fin 4096, x (ix2 p k)) * z (ix1 n) + b (ix1 n)
    = (∑ k : Fin 4096, x (ix2 p k)
        * (s (ix1 n) * qv (qw (ix2 (⟨k.val / 8, by have := k.isLt; omega⟩ : Fin 512) n)) (⟨k.val % 8, by omega⟩ : Fin 8)
          - z (ix1 n))) + b (ix1 n)
  rw [accv_eq_sum]
  -- a nibble plane of a chunk, read on the untransposed left factor
  have hd : ∀ (c : Fin 4) (j : Fin 8), dotc qw (xt x) p n c j
      = ∑ kk : Fin 128,
          x (ix2 p (⟨(128 * c.val + kk.val) * 8 + j.val, by
              have h1 := c.isLt; have h2 := j.isLt; have h3 := kk.isLt; omega⟩ : Fin 4096))
            * qv (qw (ix2 (⟨128 * c.val + kk.val, by have h1 := c.isLt; have h3 := kk.isLt; omega⟩ : Fin 512) n)) j :=
    fun c j => rfl
  simp only [hd, hfx, hfs, hfz, hfb, qv]
  exact core_ereal (fun k => fx (ix2 p k)) (fun w j => ((nib (qw (ix2 w n)) j).toInt : ℝ)) (fs (ix1 n)) (fz (ix1 n))
    (fb (ix1 n))

end Cert.Spec

end
-- ==== Proof.Finite.lean ====
import proofs.«408666_j44702019617444_3_alg».proof.Pre_finite_inputs
import proofs.«408666_j44702019617444_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has exactly one index: an index is a function out of the empty set of axes. -/
instance subsingleton_scalar_idx : Subsingleton S_.Idx := ⟨fun a b => funext fun d => d.elim0⟩

/-- The f32 pattern with all exponent bits set and a zero significand denotes the top of the extended reals. -/
theorem inf_bits_eq_top : Ideal.ofBits .f32 0x7F800000#32 = (⊤ : EReal) := by
  simp [Ideal.ofBits, Ideal.ieee]

/-- The element fact: an extended real whose absolute value `max v (-v)` lies strictly below `+∞` is a real.
    At `⊥` the absolute value is `-⊥ = ⊤`, at `⊤` it is `⊤`; neither is below `⊤`. -/
theorem real_of_abs_lt_inf (v : EReal)
    (h : Ideal.cmp .olt (max v (-v)) (Ideal.ofBits .f32 0x7F800000#32) = 1#1) : ∃ r : ℝ, v = (r : EReal) := by
  rw [inf_bits_eq_top] at h
  induction v using EReal.rec with
  | bot => simp [Ideal.cmp] at h
  | coe r => exact ⟨r, rfl⟩
  | top => simp [Ideal.cmp] at h

/-- `jnp.all(|v| < +inf)` for an array of any shape: if the conjunction over every axis of the elementwise test
    "absolute value below the broadcast `+∞` constant" is 1, each entry passed the test, hence is a real. -/
theorem reals_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ix0 = 1#1) :
    ∀ i, ∃ r : ℝ, v i = (r : EReal) := by
  intro i
  have h1 := Host.reduce_andi_all _ _ hr hu ix0 e i
  exact real_of_abs_lt_inf (v i) h1

/-- The precondition read: if the printed predicate (`|v| < +inf` for every entry of each of the four float arguments, all
    conjoined) is all ones at the extended reals, every entry of each float argument is a real. -/
theorem reals_of_pre (x : FVec Ideal S32x4096 .f32) (qw : IVec S512x11008 32) (s z b : FVec Ideal S11008 .f32)
    (h : Cert.Pre_finite_inputs.fn (F := Ideal) x qw s z b = fun _ => 1#1) :
    (∀ i, ∃ r : ℝ, x i = (r : EReal)) ∧ (∀ i, ∃ r : ℝ, s i = (r : EReal))
      ∧ (∀ i, ∃ r : ℝ, z i = (r : EReal)) ∧ (∀ i, ∃ r : ℝ, b i = (r : EReal)) := by
  have h0 := congrFun h ix0
  dsimp only [fn, fn_part1] at h0
  -- the result is ((all x ∧ all s) ∧ all z) ∧ all b, a conjunction of one-bit words
  obtain ⟨h123, hb⟩ := IntOp.andi_eq_one.1 h0
  obtain ⟨h12, hz⟩ := IntOp.andi_eq_one.1 h123
  obtain ⟨hx, hs⟩ := IntOp.andi_eq_one.1 h12
  exact ⟨reals_of_all x _ _ _ hx, reals_of_all s _ _ _ hs, reals_of_all z _ _ _ hz, reals_of_all b _ _ _ hb⟩

end Cert.Finite

end
-- ==== Proof.RefValue.lean ====
import proofs.«408666_j44702019617444_3_alg».proof.Proof.Gen.ReferenceIdeal.Run
import proofs.«408666_j44702019617444_3_alg».proof.Proof.Gen.ReferenceIdeal.Read
import proofs.«408666_j44702019617444_3_alg».proof.Proof.Spec

noncomputable section

namespace Cert.RefValue

open Cert.ReferenceIdeal Cert.ReferenceIdeal.Gen Cert.ReferenceIdeal.Read Idealize.ShloMosaic Idealize.ShloMosaic.ValueIdx

/-- The shift amount: the 32-bit product of the word `j` and the word `4` is the word `4j`, for `j < 8`. -/
theorem amt (j : Fin 8) : IntOp.muli (BitVec.ofNat 32 j.val) 4#32 = BitVec.ofNat 32 (4 * j.val) := by
  revert j; decide

/-- One nibble: the sign-filling shift of a word by `4j` (an amount below the width, so the in-range branch of the
    shift), masked with `15`, is `nib w j`. The amount is given as any natural equal to `j`. -/
theorem shr_nib (w : BitVec 32) (a : Nat) (j : Fin 8) (h : a = j.val) :
    IntOp.andi (IntOp.shrsi .host w (IntOp.muli (BitVec.ofNat 32 a) 4#32)) 15#32 = Cert.Spec.nib w j := by
  subst h
  rw [amt]
  unfold IntOp.shrsi Cert.Spec.nib
  rw [if_pos]
  rw [BitVec.toNat_ofNat]
  have := j.isLt
  omega

/-- The reshaped nibble array at row `r`, column `n`: flat position `r·11008 + n` of the [512, 8, 11008] array is
    (word `r / 8`, nibble `r % 8`, column `n`); the word is the packed word at (`r / 8`, `n`). -/
theorem v10_at (x1 : (⟨S512x11008, .i32⟩ : BufTy).Contents (Elt Ideal)) (j : S4096x11008.Idx) :
    val_main_v10 (F := Ideal) x1 j
      = Cert.Spec.nib (x1 (ix2 (⟨(j 0).val / 8, by have : (j 0).val < 4096 := (j 0).isLt; omega⟩ : Fin 512)
          (⟨(j 1).val, (j 1).isLt⟩ : Fin 11008))) (⟨(j 0).val % 8, by omega⟩ : Fin 8) := by
  have h0 : (j 0).val < 4096 := (j 0).isLt
  have h1 : (j 1).val < 11008 := (j 1).isLt
  have e1 : idx_main_v3 (idx_main_v5 (idx_main_v10 j))
      = ix2 (⟨(j 0).val / 8, by omega⟩ : Fin 512) (⟨(j 1).val, (j 1).isLt⟩ : Fin 11008) :=
    funext fun a => Fin.ext (by
      match a with
      | ⟨0, _⟩ => show ((j 0).val * 11008 + (j 1).val) / 88064 = (j 0).val / 8; omega
      | ⟨1, _⟩ => show ((j 0).val * 11008 + (j 1).val) % 11008 = (j 1).val; omega)
  rw [val_main_v10_apply, val_main_v9_apply, val_main_v7_apply, val_main_v5_apply, val_main_v3_apply, val_main_v6_apply,
    val_main_v4_apply, val_main_v2_apply, val_main_v0_apply, val_main_v1_apply, val_main_c_apply, val_main_v8_apply,
    val_main_c_0_apply, e1]
  exact shr_nib _ _ _ (by show ((j 0).val * 11008 + (j 1).val) / 11008 % 8 = (j 0).val % 8; omega)

/-- The dequantised weight at row `r`, column `n`: `s n · q (r, n) − z n`. -/
theorem v17_at (x1 : (⟨S512x11008, .i32⟩ : BufTy).Contents (Elt Ideal)) (x2 x3 : (⟨S11008, .f32⟩ : BufTy).Contents (Elt Ideal))
    (j : S4096x11008.Idx) :
    val_main_v17 (F := Ideal) x1 x2 x3 j
      = x2 (ix1 (⟨(j 1).val, (j 1).isLt⟩ : Fin 11008))
          * Cert.Spec.qv (x1 (ix2 (⟨(j 0).val / 8, by have : (j 0).val < 4096 := (j 0).isLt; omega⟩ : Fin 512)
              (⟨(j 1).val, (j 1).isLt⟩ : Fin 11008))) (⟨(j 0).val % 8, by omega⟩ : Fin 8)
        - x3 (ix1 (⟨(j 1).val, (j 1).isLt⟩ : Fin 11008)) := by
  have e2 : idx_main_v11 (idx_main_v13 j) = ix1 (⟨(j 1).val, (j 1).isLt⟩ : Fin 11008) :=
    funext fun a => Fin.ext (by match a with | ⟨0, _⟩ => rfl)
  have e3 : idx_main_v15 (idx_main_v16 j) = ix1 (⟨(j 1).val, (j 1).isLt⟩ : Fin 11008) :=
    funext fun a => Fin.ext (by match a with | ⟨0, _⟩ => rfl)
  rw [val_main_v17_apply, val_main_v14_apply, val_main_v13_apply, val_main_v11_apply, val_main_v12_apply, v10_at,
    val_main_v16_apply, val_main_v15_apply, e2, e3]
  rfl

/-- The reference's last stage, index by index, is the plain form: the dot product over `k < 4096` of `x (p,k)` with the
    dequantised weight `s n · q (k,n) − z n` — row `k` of the reshaped [512, 8, 11008] nibble array being nibble `k % 8` of
    word `k / 8`, the shift amount `4 · (k % 8)` — plus the bias. -/
theorem ref_eq (x0 : (⟨S32x4096, .f32⟩ : BufTy).Contents (Elt Ideal)) (x1 : (⟨S512x11008, .i32⟩ : BufTy).Contents (Elt Ideal))
    (x2 x3 x4 : (⟨S11008, .f32⟩ : BufTy).Contents (Elt Ideal)) :
    val_main_v21 (F := Ideal) x0 x1 x2 x3 x4 = Cert.Spec.Gref x0 x1 x2 x3 x4 := by
  funext i
  have e4 : idx_main_v19 (idx_main_v20 i) = ix1 (⟨(i 1).val, (i 1).isLt⟩ : Fin 11008) :=
    funext fun a => Fin.ext (by match a with | ⟨0, _⟩ => rfl)
  have e5 : ∀ k : Fin 4096, lidx_main_v18 i k = ix2 (⟨(i 0).val, (i 0).isLt⟩ : Fin 32) k := fun k =>
    funext fun a => Fin.ext (by match a with | ⟨0, _⟩ => rfl | ⟨1, _⟩ => rfl)
  rw [val_main_v21_apply, val_main_v18_apply, val_main_v20_apply, val_main_v19_apply, e4]
  simp only [v17_at, e5]
  rfl

end Cert.RefValue

end
-- ==== Proof.KI.BodyOut.lean ====
import proofs.«408666_j44702019617444_3_alg».proof.Proof.Gen.KernelIdeal.Skeleton
import Idealize.ShloMosaic.Lib.ValueIdx

/-!
What one run of the kernel body stores, as ONE pure function of what the staging buffers hold.

The body reads the packed-word tile in four row bands of 128 words (`lq c`), and for each band the eight nibble
planes of the transposed activations (`lx c j`: plane `j`, all 32 tokens, words `128c … 128c + 127`); it reads the
scale, zero-point and bias rows and the row-sum column whole. `bodyOut` threads those reads through the body's
arithmetic in program order: per band eight (shift, mask, convert, matrix product) steps added left to right, the
four bands added left to right, then `acc · scale − rowsum · zero + bias`.
-/

noncomputable section

namespace Cert.KernelIdeal.Hand

open Idealize.ShloMosaic Idealize.ShloMosaic.ValueIdx Cert.KernelIdeal Cert.KernelIdeal.Gen

variable {F : FTy → Type} [FloatOps F]

/-- Row band `c` of the packed-word tile: rows `128c … 128c + 127`, every column. -/
def lq (c : Fin 4) (X0 : Vec F S512x1408 .i32) : Vec F S128x1408 .i32 := fun y =>
  X0 (ix2 (⟨128 * c.val + (y 0).val, by have h : (y 0).val < 128 := (y 0).isLt; have := c.isLt; omega⟩ : Fin 512)
    (⟨(y 1).val, (y 1).isLt⟩ : Fin 1408))

/-- Plane `j` of the transposed activations on band `c`: all 32 tokens, words `128c … 128c + 127`. -/
def lx (c : Fin 4) (j : Fin 8) (X1 : Vec F S8x32x512 .f32) : Vec F S1x32x128 .f32 := fun y =>
  X1 (ix3 j (⟨(y 1).val, (y 1).isLt⟩ : Fin 32)
    (⟨128 * c.val + (y 2).val, by have h : (y 2).val < 128 := (y 2).isLt; have := c.isLt; omega⟩ : Fin 512))

/-- The value the body stores into the result tile, from the contents of the six input staging buffers. -/
def bodyOut (X0 : Vec F S512x1408 .i32) (X1 : Vec F S8x32x512 .f32) (X2 : Vec F S32x1 .f32)
    (X3 X4 X5 : Vec F S1x1408 .f32) : FVec F S32x1408 .f32 :=
  -- band 0
  let v4 := lq 0 X0
  let v35 := k0_pay3 v4 (lx 0 0 X1) (lx 0 1 X1) (lx 0 2 X1)
  let v75 := k0_pay5 v4 v35 (k0_pay4 v4) (lx 0 3 X1) (lx 0 4 X1) (lx 0 5 X1) (lx 0 6 X1)
  let v86 := k0_pay7 (k0_pay2 (F := F)) v75 (k0_pay6 v4) (lx 0 7 X1)
  -- band 1
  let v90 := lq 1 X0
  let v111 := k0_pay8 v90 (lx 1 0 X1) (lx 1 1 X1)
  let v151 := k0_pay10 v90 v111 (k0_pay9 v90) (lx 1 2 X1) (lx 1 3 X1) (lx 1 4 X1) (lx 1 5 X1)
  let v172 := k0_pay12 v86 v90 v151 (k0_pay11 v90) (lx 1 6 X1) (lx 1 7 X1)
  -- band 2
  let v176 := lq 2 X0
  let v187 := k0_pay13 v176 (lx 2 0 X1)
  let v227 := k0_pay16 v176 v187 (k0_pay14 v176) (k0_pay15 (lx 2 1 X1)) (constant S32x1408 .f32 0x00000000#32)
    (lx 2 2 X1) (lx 2 3 X1) (lx 2 4 X1)
  let v258 := k0_pay19 v172 v176 v227 (k0_pay17 v176) (k0_pay18 (lx 2 5 X1)) (constant S32x1408 .f32 0x00000000#32)
    (lx 2 6 X1) (lx 2 7 X1)
  -- band 3
  let v262 := lq 3 X0
  let v273 := k0_pay20 v262 (lx 3 0 X1)
  let v313 := k0_pay22 v262 v273 (k0_pay21 v262) (lx 3 1 X1) (lx 3 2 X1) (lx 3 3 X1) (lx 3 4 X1)
  let v344 := k0_pay24 v258 v262 v313 (k0_pay23 v262) (lx 3 5 X1) (lx 3 6 X1) (lx 3 7 X1)
  -- scale, zero point, bias, row sums
  k0_pay1 v344 (k0_pay25 X3) (k0_pay26 X4) (k0_pay27 X5) (k0_pay28 X2)

end Cert.KernelIdeal.Hand

end
-- ==== Proof.KI.Body.lean ====
import proofs.«408666_j44702019617444_3_alg».proof.Proof.KI.BodyOut
import proofs.«408666_j44702019617444_3_alg».proof.Proof.Gen.KernelIdeal.Launch
import proofs.«408666_j44702019617444_3_alg».proof.Proof.Gen.KernelIdeal.Points
import Idealize.ShloMosaic.Lib.Pipeline.Kit
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Two rank-3 indices with the same three coordinates are equal. -/
private theorem idx_ext3 {n : Fin 3 → ℕ} {x y : (a : Fin 3) → Fin (n a)} (h0 : (x 0 : ℕ) = y 0) (h1 : (x 1 : ℕ) = y 1)
    (h2 : (x 2 : ℕ) = y 2) : x = y :=
  funext fun a => Fin.ext (by match a with | ⟨0, _⟩ => exact h0 | ⟨1, _⟩ => exact h1 | ⟨2, _⟩ => exact h2)

/-- A load of 128 rows from row `r = 128 c` of the packed-word tile, every column: entry `y` of what is read is the
    tile's entry at row `r + y₀`, column `y₁`, which is row band `c` of the tile. -/
private theorem readAt_band {sg : RefSig} {κ : Kind} {sp : Space} (v : View sg κ sp S512x1408 .i32)
    (f : v.ty.Contents (Elt F)) (c : Fin 4) (r : Nat) (hr : r = 128 * c.val)
    (inb : ∀ a, (![r, 0] : Fin S512x1408.rank → Nat) a + S128x1408.size a ≤ S512x1408.size a) :
    v.readAt (Elt F) (Rect.unit (s := S512x1408) ![r, 0] S128x1408.size inb).toLoadRect f = lq c (v.read (Elt F) f) := by
  subst hr
  funext y
  show v.read (Elt F) f _ = v.read (Elt F) f _
  refine congrArg (v.read (Elt F) f) (Shape.idx_ext₂ ?_ ?_)
  · show 128 * c.val + 1 * (y 0).val = 128 * c.val + (y 0).val; omega
  · show 0 + 1 * (y 1).val = (y 1).val; omega

/-- A load of one nibble plane `p = j` of the transposed activations, all 32 tokens, 128 words from word `r = 128 c`:
    entry `y` of what is read is the activations' entry at plane `p`, token `y₁`, word `r + y₂`. -/
private theorem readAt_plane {sg : RefSig} {κ : Kind} {sp : Space} (v : View sg κ sp S8x32x512 .f32)
    (f : v.ty.Contents (Elt F)) (c : Fin 4) (j : Fin 8) (p r : Nat) (hp : p = j.val) (hr : r = 128 * c.val)
    (inb : ∀ a, (![p, 0, r] : Fin S8x32x512.rank → Nat) a + S1x32x128.size a ≤ S8x32x512.size a) :
    v.readAt (Elt F) (Rect.unit (s := S8x32x512) ![p, 0, r] S1x32x128.size inb).toLoadRect f = lx c j (v.read (Elt F) f) := by
  subst hp hr
  funext y
  show v.read (Elt F) f _ = v.read (Elt F) f _
  refine congrArg (v.read (Elt F) f) (idx_ext3 ?_ ?_ ?_)
  · show j.val + 1 * (y 0).val = j.val
    have h : (y 0).val < 1 := (y 0).isLt
    omega
  · show 0 + 1 * (y 1).val = (y 1).val; omega
  · show 128 * c.val + 1 * (y 2).val = 128 * c.val + (y 2).val; omega

/-- A load of a whole buffer (zero offsets, the buffer's own extents) reads the buffer's contents. -/
private theorem readAt_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

-- The rectangles the run reads through carry their in-bounds evidence stated over the offsets as the program computes
-- them (a product of two 32-bit words, cast to an index); the load equations above state the same rectangles at the
-- offsets' values (0, 128, 256, 384). The two statements of one inequality agree by evaluating that arithmetic.
set_option backward.isDefEq.respectTransparency.types false in
set_option maxHeartbeats 1000000 in
/-- One run of the body on any whole staging memrefs of the seven windows: it only reads the six input buffers, which keep
    their contents, and overwrites the whole result buffer (whatever it held) with `bodyOut` of what the six hold. -/
theorem sound_body (c : Dev nD) (E : Set ℕ) (i : grid0.Coords)
    (arg1 : Memref sig .tc .vmem S512x1408 .i32) (harg1 : arg1.IsWhole) (arg2 : Memref sig .tc .vmem S8x32x512 .f32) (harg2 : arg2.IsWhole)
    (arg3 : Memref sig .tc .vmem S32x1 .f32) (harg3 : arg3.IsWhole) (arg4 : Memref sig .tc .vmem S1x1408 .f32) (harg4 : arg4.IsWhole)
    (arg5 : Memref sig .tc .vmem S1x1408 .f32) (harg5 : arg5.IsWhole) (arg6 : Memref sig .tc .vmem S1x1408 .f32) (harg6 : arg6.IsWhole)
    (arg7 : Memref sig .tc .vmem S32x1408 .f32) (harg7 : arg7.IsWhole)
    (X0 : Vec F S512x1408 .i32) (X1 : Vec F S8x32x512 .f32) (X2 : Vec F S32x1 .f32) (X3 X4 X5 : Vec F S1x1408 .f32)
    (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare X4 ∗ owns (c : Thread nD τ) arg6 fullShare X5
          ∗ (∃ d, owns (c : Thread nD τ) arg7 fullShare d)
          ∗ (iprop(owns (c : Thread nD τ) arg1 fullShare X0 ∗ owns (c : Thread nD τ) arg2 fullShare X1 ∗ owns (c : Thread nD τ) arg3 fullShare X2
                  ∗ owns (c : Thread nD τ) arg4 fullShare X3 ∗ owns (c : Thread nD τ) arg5 fullShare X4 ∗ owns (c : Thread nD τ) arg6 fullShare X5
                  ∗ owns (c : Thread nD τ) arg7 fullShare (bodyOut X0 X1 X2 X3 X4 X5)) -∗ K ⟨⟩))
      ⊢ wp frame (wpE (defs₀ (F := F)) Variants.none c none) E
          (cc0__dequant_matmul_kernel i arg1 harg1 arg2 harg2 arg3 harg3 arg4 harg4 arg5 harg5 arg6 harg6 arg7 harg7) K := by
  simp only [cc0__dequant_matmul_kernel_eq_skeleton]; unfold cc0__dequant_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the run: forty loads of the six input buffers, which keep their contents, and one write of the whole result buffer
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- what the result buffer reads after its one whole write is the written value
  have hz : (![0, 0] : Fin 2 → Nat) = fun _ => 0 := by funext a; fin_cases a <;> rfl
  rw [View.read_writes_eq_canon _ _ _
    (fun y => ⟨_, List.mem_singleton_self _, View.mem_set_unit_zero hz inb_S32x1408_S32x1408_0_0 y⟩)]
  rw [View.canon_unit_zero hz]
  sl_unfold_run_names
  -- each band load of the packed words is a row band, each plane load a plane on a band, each whole load the contents
  rw [readAt_band arg1.view f0 0 0 rfl, readAt_band arg1.view f0 1 128 rfl, readAt_band arg1.view f0 2 256 rfl,
    readAt_band arg1.view f0 3 384 rfl]
  rw [readAt_plane arg2.view f1 0 0 0 0 rfl rfl, readAt_plane arg2.view f1 0 1 1 0 rfl rfl,
    readAt_plane arg2.view f1 0 2 2 0 rfl rfl, readAt_plane arg2.view f1 0 3 3 0 rfl rfl,
    readAt_plane arg2.view f1 0 4 4 0 rfl rfl, readAt_plane arg2.view f1 0 5 5 0 rfl rfl,
    readAt_plane arg2.view f1 0 6 6 0 rfl rfl, readAt_plane arg2.view f1 0 7 7 0 rfl rfl]
  rw [readAt_plane arg2.view f1 1 0 0 128 rfl rfl, readAt_plane arg2.view f1 1 1 1 128 rfl rfl,
    readAt_plane arg2.view f1 1 2 2 128 rfl rfl, readAt_plane arg2.view f1 1 3 3 128 rfl rfl,
    readAt_plane arg2.view f1 1 4 4 128 rfl rfl, readAt_plane arg2.view f1 1 5 5 128 rfl rfl,
    readAt_plane arg2.view f1 1 6 6 128 rfl rfl, readAt_plane arg2.view f1 1 7 7 128 rfl rfl]
  rw [readAt_plane arg2.view f1 2 0 0 256 rfl rfl, readAt_plane arg2.view f1 2 1 1 256 rfl rfl,
    readAt_plane arg2.view f1 2 2 2 256 rfl rfl, readAt_plane arg2.view f1 2 3 3 256 rfl rfl,
    readAt_plane arg2.view f1 2 4 4 256 rfl rfl, readAt_plane arg2.view f1 2 5 5 256 rfl rfl,
    readAt_plane arg2.view f1 2 6 6 256 rfl rfl, readAt_plane arg2.view f1 2 7 7 256 rfl rfl]
  rw [readAt_plane arg2.view f1 3 0 0 384 rfl rfl, readAt_plane arg2.view f1 3 1 1 384 rfl rfl,
    readAt_plane arg2.view f1 3 2 2 384 rfl rfl, readAt_plane arg2.view f1 3 3 3 384 rfl rfl,
    readAt_plane arg2.view f1 3 4 4 384 rfl rfl, readAt_plane arg2.view f1 3 5 5 384 rfl rfl,
    readAt_plane arg2.view f1 3 6 6 384 rfl rfl, readAt_plane arg2.view f1 3 7 7 384 rfl rfl]
  rw [readAt_whole arg4.view f3 hz, readAt_whole arg5.view f4 hz, readAt_whole arg6.view f5 hz,
    readAt_whole arg3.view f2 hz]
  rfl

end Cert.KernelIdeal.Hand

end
-- ==== Proof.KI.PayCol.lean ====
import proofs.«408666_j44702019617444_3_alg».proof.Proof.KI.BodyOut
import proofs.«408666_j44702019617444_3_alg».proof.Proof.Spec
import Idealize.ShloMosaic.PureOps.Ideal.Laws
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-! Auxiliary definitions and lemmas, kept in their own namespace. -/
namespace PayCol

/-! ### One matrix product into a zero accumulator, read at an entry -/

/-- Left operand index of the product: axis 0 is the output row. -/
theorem lhs_mm_0 (i : S32x1408.Idx) (k : dot_S32x128_S128x1408_S32x1408_1_0_0_1_n_n.contr.Idx) :
    (dot_S32x128_S128x1408_S32x1408_1_0_0_1_n_n.lhsIdx i k 0).val = (i 0).val := by
  unfold DotDims.lhsIdx
  rw [dif_neg (show ¬(0 : Fin S32x128.rank) ∈ dot_S32x128_S128x1408_S32x1408_1_0_0_1_n_n.lhsBatch by decide),
    dif_pos (show (0 : Fin S32x128.rank) ∈ dot_S32x128_S128x1408_S32x1408_1_0_0_1_n_n.lhsNonContracting by decide)]
  rfl

/-- Left operand index of the product: axis 1 is the contraction position. -/
theorem lhs_mm_1 (i : S32x1408.Idx) (k : dot_S32x128_S128x1408_S32x1408_1_0_0_1_n_n.contr.Idx) :
    (dot_S32x128_S128x1408_S32x1408_1_0_0_1_n_n.lhsIdx i k 1).val = (k ⟨0, by decide⟩).val :=
  dot_S32x128_S128x1408_S32x1408_1_0_0_1_n_n.lhsIdx_val_of_single rfl i k

/-- Right operand index of the product: axis 0 is the contraction position. -/
theorem rhs_mm_0 (i : S32x1408.Idx) (k : dot_S32x128_S128x1408_S32x1408_1_0_0_1_n_n.contr.Idx) :
    (dot_S32x128_S128x1408_S32x1408_1_0_0_1_n_n.rhsIdx i k 0).val = (k ⟨0, by decide⟩).val :=
  dot_S32x128_S128x1408_S32x1408_1_0_0_1_n_n.rhsIdx_val_of_single rfl i k

/-- Right operand index of the product: axis 1 is the output column. -/
theorem rhs_mm_1 (i : S32x1408.Idx) (k : dot_S32x128_S128x1408_S32x1408_1_0_0_1_n_n.contr.Idx) :
    (dot_S32x128_S128x1408_S32x1408_1_0_0_1_n_n.rhsIdx i k 1).val = (i 1).val := by
  unfold DotDims.rhsIdx
  rw [dif_neg (show ¬(1 : Fin S128x1408.rank) ∈ dot_S32x128_S128x1408_S32x1408_1_0_0_1_n_n.rhsBatch by decide),
    dif_pos (show (1 : Fin S128x1408.rank) ∈ dot_S32x128_S128x1408_S32x1408_1_0_0_1_n_n.rhsNonContracting by decide)]
  rfl

/-- A `[32,128] × [128,1408]` product into the zero tile, at `(p, q)`: the plain sum over the 128 contraction positions. -/
theorem mm_apply (a : FVec Ideal S32x128 .f32) (b : FVec Ideal S128x1408 .f32) (p : Fin 32) (q : Fin 1408) :
    FloatOps.matmul dot_S32x128_S128x1408_S32x1408_1_0_0_1_n_n none a b (constant (F := Ideal) S32x1408 .f32 0x00000000#32) (ix2 p q)
      = ∑ kk : Fin 128, a (ix2 p kk) * b (ix2 kk q) := by
  rw [Ideal.matmul_constant_zero_apply,
    ← Equiv.sum_comp (ValueIdx.contrEquiv1 dot_S32x128_S128x1408_S32x1408_1_0_0_1_n_n 128 rfl rfl).symm]
  refine Finset.sum_congr rfl fun kk _ => ?_
  have hk := ValueIdx.contrEquiv1_symm_val dot_S32x128_S128x1408_S32x1408_1_0_0_1_n_n 128 rfl rfl kk
  have el : dot_S32x128_S128x1408_S32x1408_1_0_0_1_n_n.lhsIdx (ix2 p q)
      ((ValueIdx.contrEquiv1 dot_S32x128_S128x1408_S32x1408_1_0_0_1_n_n 128 rfl rfl).symm kk) = ix2 p kk :=
    funext fun ax => Fin.ext (by
      match ax with
      | ⟨0, _⟩ => exact lhs_mm_0 _ _
      | ⟨1, _⟩ => exact (lhs_mm_1 _ _).trans hk)
  have er : dot_S32x128_S128x1408_S32x1408_1_0_0_1_n_n.rhsIdx (ix2 p q)
      ((ValueIdx.contrEquiv1 dot_S32x128_S128x1408_S32x1408_1_0_0_1_n_n 128 rfl rfl).symm kk) = ix2 kk q :=
    funext fun ax => Fin.ext (by
      match ax with
      | ⟨0, _⟩ => exact (rhs_mm_0 _ _).trans hk
      | ⟨1, _⟩ => exact rhs_mm_1 _ _)
  rw [el, er]

/-! ### One nibble plane of one band -/

/-- The zero tile the planes and the bands are accumulated into. -/
def zt : FVec Ideal S32x1408 .f32 := broadcast S32x1408 (Scalar.ofBits (F := Ideal) .f32 0x00000000#32)

theorem zt_apply (i : S32x1408.Idx) : zt i = 0 := Ideal.ofBits_zero_f32

/-- The words of a band shifted right (sign-filling) by `sh`, masked to four bits, converted to a real. -/
def deq (v : IVec S128x1408 32) (sh : BitVec 32) : FVec Ideal S128x1408 .f32 :=
  sitofp .f32 (andi (shrsi v (broadcast S128x1408 sh)) (broadcast S128x1408 15#32))

theorem deq_apply (v : IVec S128x1408 32) (sh : BitVec 32) (hsh : sh.toNat < 32) (i : S128x1408.Idx) :
    deq v sh i = (((IntOp.andi ((v i).sshiftRight' sh) 15#32).toInt : ℝ) : EReal) := by
  show (((IntOp.andi (IntOp.shrsi .vector (v i) sh) 15#32).toInt : ℝ) : EReal) = _
  unfold IntOp.shrsi
  rw [if_pos hsh]

/-- One plane's contribution: the activations' plane (its unit axis dropped) times the converted nibbles, into zero. -/
def planeTile (v : IVec S128x1408 32) (sh : BitVec 32) (x : Vec Ideal S1x32x128 .f32) : FVec Ideal S32x1408 .f32 :=
  FloatOps.matmul dot_S32x128_S128x1408_S32x1408_1_0_0_1_n_n none
    (shapeCast S32x128 x Facts₀.shapeCasts_S1x32x128_S32x128 : FVec Ideal S32x128 .f32) (deq v sh) (constant (F := Ideal) S32x1408 .f32 0x00000000#32)

/-- The plane's contribution at `(p, q)` is the chunk's dot product of plane `j`: the activation read is
    `XT (j, p, 128c + kk)`, the word read is `Q (128c + kk, q)`. -/
theorem planeTile_apply (X0 : S512x1408.Idx → Elt Ideal .i32) (X1 : S8x32x512.Idx → Elt Ideal .f32) (c : Fin 4) (j : Fin 8)
    (sh : BitVec 32) (hsh : sh = BitVec.ofNat 32 (4 * j.val)) (p : Fin 32) (q : Fin 1408) :
    planeTile (lq c X0) sh (lx c j X1) (ix2 p q) = Cert.Spec.dotc X0 X1 p q c j := by
  have hlt : sh.toNat < 32 := by
    subst hsh
    rw [BitVec.toNat_ofNat]
    have := j.isLt
    omega
  unfold planeTile
  rw [mm_apply]
  unfold Cert.Spec.dotc
  refine Finset.sum_congr rfl fun kk _ => ?_
  rw [shapeCast_1ab_ab_apply, deq_apply _ _ hlt]
  subst hsh
  rfl

/-! ### One band: its eight planes added left to right into zero -/

/-- The band's accumulated tile, in the order the body adds the planes. -/
def chunkTile (v : IVec S128x1408 32) (x0 x1 x2 x3 x4 x5 x6 x7 : Vec Ideal S1x32x128 .f32) : FVec Ideal S32x1408 .f32 :=
  addf (addf (addf (addf (addf (addf (addf (addf zt (planeTile v 0#32 x0)) (planeTile v 4#32 x1)) (planeTile v 8#32 x2))
    (planeTile v 12#32 x3)) (planeTile v 16#32 x4)) (planeTile v 20#32 x5)) (planeTile v 24#32 x6)) (planeTile v 28#32 x7)

theorem chunkTile_apply (X0 : S512x1408.Idx → Elt Ideal .i32) (X1 : S8x32x512.Idx → Elt Ideal .f32) (c : Fin 4)
    (p : Fin 32) (q : Fin 1408) :
    chunkTile (lq c X0) (lx c 0 X1) (lx c 1 X1) (lx c 2 X1) (lx c 3 X1) (lx c 4 X1) (lx c 5 X1) (lx c 6 X1) (lx c 7 X1) (ix2 p q)
      = Cert.Spec.chunkv X0 X1 p q c := by
  unfold chunkTile Cert.Spec.chunkv
  simp only [addf_apply, zt_apply]
  rw [planeTile_apply X0 X1 c 0 0#32 rfl p q, planeTile_apply X0 X1 c 1 4#32 rfl p q,
    planeTile_apply X0 X1 c 2 8#32 rfl p q, planeTile_apply X0 X1 c 3 12#32 rfl p q,
    planeTile_apply X0 X1 c 4 16#32 rfl p q, planeTile_apply X0 X1 c 5 20#32 rfl p q,
    planeTile_apply X0 X1 c 6 24#32 rfl p q, planeTile_apply X0 X1 c 7 28#32 rfl p q]

/-! ### The four bands as the body's terms: each is the running sum plus the band's tile -/

theorem band0_eq (v : Vec Ideal S128x1408 .i32) (x0 x1 x2 x3 x4 x5 x6 x7 : Vec Ideal S1x32x128 .f32) :
    k0_pay7 (k0_pay2 (F := Ideal)) (k0_pay5 v (k0_pay3 v x0 x1 x2) (k0_pay4 v) x3 x4 x5 x6) (k0_pay6 v) x7
      = addf zt (chunkTile v x0 x1 x2 x3 x4 x5 x6 x7) := rfl

theorem band1_eq (acc : FVec Ideal S32x1408 .f32) (v : Vec Ideal S128x1408 .i32) (x0 x1 x2 x3 x4 x5 x6 x7 : Vec Ideal S1x32x128 .f32) :
    k0_pay12 acc v (k0_pay10 v (k0_pay8 v x0 x1) (k0_pay9 v) x2 x3 x4 x5) (k0_pay11 v) x6 x7
      = addf acc (chunkTile v x0 x1 x2 x3 x4 x5 x6 x7) := rfl

theorem band2_eq (acc : FVec Ideal S32x1408 .f32) (v : Vec Ideal S128x1408 .i32) (x0 x1 x2 x3 x4 x5 x6 x7 : Vec Ideal S1x32x128 .f32) :
    k0_pay19 acc v (k0_pay16 v (k0_pay13 v x0) (k0_pay14 v) (k0_pay15 x1) (constant (F := Ideal) S32x1408 .f32 0x00000000#32) x2 x3 x4)
        (k0_pay17 v) (k0_pay18 x5) (constant (F := Ideal) S32x1408 .f32 0x00000000#32) x6 x7
      = addf acc (chunkTile v x0 x1 x2 x3 x4 x5 x6 x7) := rfl

theorem band3_eq (acc : FVec Ideal S32x1408 .f32) (v : Vec Ideal S128x1408 .i32) (x0 x1 x2 x3 x4 x5 x6 x7 : Vec Ideal S1x32x128 .f32) :
    k0_pay24 acc v (k0_pay22 v (k0_pay20 v x0) (k0_pay21 v) x1 x2 x3 x4) (k0_pay23 v) x5 x6 x7
      = addf acc (chunkTile v x0 x1 x2 x3 x4 x5 x6 x7) := rfl

/-! ### The epilogue: scale, zero point, bias, row sums -/

/-- A `[32,1]` column broadcast to `[32,1408]` reads, at `(p, q)`, the column at `(p, 0)`. -/
theorem broadcastTo_col_apply (v : S32x1.Idx → EReal) (h : S32x1.Broadcasts S32x1408) (p : Fin 32) (q : Fin 1408) :
    broadcastTo S32x1408 v h (ix2 p q) = v (ix2 p (0 : Fin 1)) := by
  refine broadcastTo_apply v h (ix2 p q) (ix2 p (0 : Fin 1)) fun ax => ?_
  match ax with
  | ⟨0, _⟩ =>
    show p.val = if (32 : Nat) = 1 then 0 else p.val
    rw [if_neg (by decide)]
  | ⟨1, _⟩ =>
    show 0 = if (1 : Nat) = 1 then 0 else q.val
    rw [if_pos rfl]

/-- The stored value at `(p, q)` from the accumulator and the four small operands: `acc · s − xs · z + b`, the rows read
    at column `q`, the column at row `p`. -/
theorem pay1_apply (acc : FVec Ideal S32x1408 .f32) (S Z B : Vec Ideal S1x1408 .f32) (XS : Vec Ideal S32x1 .f32)
    (p : Fin 32) (q : Fin 1408) :
    k0_pay1 acc (k0_pay25 S) (k0_pay26 Z) (k0_pay27 B) (k0_pay28 XS) (ix2 p q)
      = acc (ix2 p q) * S (ix2 (0 : Fin 1) q) - XS (ix2 p (0 : Fin 1)) * Z (ix2 (0 : Fin 1) q) + B (ix2 (0 : Fin 1) q) := by
  unfold k0_pay1 k0_pay25 k0_pay26 k0_pay27 k0_pay28
  simp only [shapeCast_self, addf_apply, subf_apply, mulf_apply, broadcastTo_1b_ab_apply, broadcastTo_col_apply]

end PayCol

open PayCol

/-! ### The whole body -/

/-- Over the extended reals the body's stored tile is the factored form on its 1408 columns: each of the 32 matrix
    products into a zero accumulator is a plain sum over its 128 words, the shifts, masks and converts give the nibble
    as a real, and the scale / zero-point / bias rows and the row-sum column broadcast along the other axis. -/
theorem bodyOut_eq (X0 : S512x1408.Idx → Elt Ideal .i32) (X1 : S8x32x512.Idx → Elt Ideal .f32) (X2 : S32x1.Idx → Elt Ideal .f32)
    (X3 X4 X5 : S1x1408.Idx → Elt Ideal .f32) :
    bodyOut (F := Ideal) X0 X1 X2 X3 X4 X5 = Cert.Spec.kerVal 1408 X0 X1 X2 X3 X4 X5 := by
  funext i
  obtain ⟨p, q, rfl⟩ : ∃ (p : Fin 32) (q : Fin 1408), i = ix2 p q := ⟨i 0, i 1, eq_ix2 i⟩
  show k0_pay1
      (k0_pay24
        (k0_pay19
          (k0_pay12
            (k0_pay7 (k0_pay2 (F := Ideal))
              (k0_pay5 (lq 0 X0) (k0_pay3 (lq 0 X0) (lx 0 0 X1) (lx 0 1 X1) (lx 0 2 X1)) (k0_pay4 (lq 0 X0))
                (lx 0 3 X1) (lx 0 4 X1) (lx 0 5 X1) (lx 0 6 X1))
              (k0_pay6 (lq 0 X0)) (lx 0 7 X1))
            (lq 1 X0)
            (k0_pay10 (lq 1 X0) (k0_pay8 (lq 1 X0) (lx 1 0 X1) (lx 1 1 X1)) (k0_pay9 (lq 1 X0))
              (lx 1 2 X1) (lx 1 3 X1) (lx 1 4 X1) (lx 1 5 X1))
            (k0_pay11 (lq 1 X0)) (lx 1 6 X1) (lx 1 7 X1))
          (lq 2 X0)
          (k0_pay16 (lq 2 X0) (k0_pay13 (lq 2 X0) (lx 2 0 X1)) (k0_pay14 (lq 2 X0)) (k0_pay15 (lx 2 1 X1))
            (constant (F := Ideal) S32x1408 .f32 0x00000000#32) (lx 2 2 X1) (lx 2 3 X1) (lx 2 4 X1))
          (k0_pay17 (lq 2 X0)) (k0_pay18 (lx 2 5 X1)) (constant (F := Ideal) S32x1408 .f32 0x00000000#32)
          (lx 2 6 X1) (lx 2 7 X1))
        (lq 3 X0)
        (k0_pay22 (lq 3 X0) (k0_pay20 (lq 3 X0) (lx 3 0 X1)) (k0_pay21 (lq 3 X0))
          (lx 3 1 X1) (lx 3 2 X1) (lx 3 3 X1) (lx 3 4 X1))
        (k0_pay23 (lq 3 X0)) (lx 3 5 X1) (lx 3 6 X1) (lx 3 7 X1))
      (k0_pay25 X3) (k0_pay26 X4) (k0_pay27 X5) (k0_pay28 X2) (ix2 p q)
    = Cert.Spec.accv X0 X1 p q * X3 (ix2 (0 : Fin 1) q) - X2 (ix2 p (0 : Fin 1)) * X4 (ix2 (0 : Fin 1) q)
      + X5 (ix2 (0 : Fin 1) q)
  rw [pay1_apply, band3_eq, band2_eq, band1_eq, band0_eq]
  simp only [addf_apply, zt_apply]
  rw [chunkTile_apply X0 X1 0 p q, chunkTile_apply X0 X1 1 p q, chunkTile_apply X0 X1 2 p q, chunkTile_apply X0 X1 3 p q]
  rfl

end Cert.KernelIdeal.Hand

end
-- ==== Proof.KI.Oblig.lean ====
import proofs.«408666_j44702019617444_3_alg».proof.Proof.KI.Body
import proofs.«408666_j44702019617444_3_alg».proof.Proof.KI.PayCol
import proofs.«408666_j44702019617444_3_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The factored form on the whole arrays as the region finds them: the packed words, the transposed activations, the
    row sums, and the scale, zero-point and bias rows. What the result array is shown to end at. -/
def GkV (c : Dev nD) : S32x11008.Idx → Elt Ideal .f32 :=
  Cert.Spec.kerVal 11008 (V m c main_arg1) (V m c main_v1) (V m c main_v3) (V m c main_v4) (V m c main_v5) (V m c main_v6)

/-- A word for the part of a staging buffer no transfer moves (nothing reads it). -/
def pad {e : EltTy} : Elt Ideal e := Classical.arbitrary _

/-- The proof data: the arrays as the region finds them; after the body each input buffer still holds its block (on the part
    inside the array) and the result buffer holds, on the part inside the array, its block of `GkV`. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => iblk m c 1 t
    | ⟨2, _⟩ => iblk m c 2 t
    | ⟨3, _⟩ => win0_3.fill (grid0.coords t) (fun _ => pad) (iblk m c 3 t)
    | ⟨4, _⟩ => win0_4.fill (grid0.coords t) (fun _ => pad) (iblk m c 4 t)
    | ⟨5, _⟩ => win0_5.fill (grid0.coords t) (fun _ => pad) (iblk m c 5 t)
    | ⟨6, _⟩ => win0_6.fill (grid0.coords t) (fun _ => pad) ((win0_6.blk t).view.read (Elt Ideal) (GkV m c))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the write-back at point `t` writes is block `t` of `GkV` (the part inside the array). -/
theorem flushed6 (c : Dev nD) (t : Fin cfg0.N) :
    (dats m 0 c).flushed 6 t = ((cfg0.win 6).blk t).view.read (Elt Ideal) (GkV m c) :=
  win0_6.cut_fill _ _ _

open Idealize.ShloMosaic.ValueIdx

/-- Before the body runs at point `t`, each clipped input buffer holds the block just fetched on the part the transfer
    moves, and whatever it held before elsewhere. -/
theorem before_0 (c : Dev nD) (t : Fin cfg0.N) (d) :
    (dats m 0 c).before 0 t d = win0_0.fill (grid0.coords t) d (iblk m c 0 t) := by
  unfold Dat.before; rw [if_pos (fetch0_0 t)]; rfl
theorem before_3 (c : Dev nD) (t : Fin cfg0.N) (d) :
    (dats m 0 c).before 3 t d = win0_3.fill (grid0.coords t) d (iblk m c 3 t) := by
  unfold Dat.before; rw [if_pos (fetch0_3 t)]; rfl
theorem before_4 (c : Dev nD) (t : Fin cfg0.N) (d) :
    (dats m 0 c).before 4 t d = win0_4.fill (grid0.coords t) d (iblk m c 4 t) := by
  unfold Dat.before; rw [if_pos (fetch0_4 t)]; rfl
theorem before_5 (c : Dev nD) (t : Fin cfg0.N) (d) :
    (dats m 0 c).before 5 t d = win0_5.fill (grid0.coords t) d (iblk m c 5 t) := by
  unfold Dat.before; rw [if_pos (fetch0_5 t)]; rfl
/-- The two whole-array inputs hold their (only) block at every point. -/
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
/-- The result window is never fetched. -/
theorem fetch_6 : ∀ t : Fin cfg0.N, (cfg0.win 6).fetch t = false :=
  (by decide +kernel : ∀ t : Fin grid0.N, win0_6.fetch t = false)
/-- The result buffer holds words nothing names: at the first point what it held, later the previous point wrote it back. -/
theorem before_6 (c : Dev nD) (t : Fin cfg0.N) (d) : (dats m 0 c).before 6 t d = d := by
  have hf : (cfg0.win 6).fetch t = false := fetch_6 t
  by_cases ht : t.val = 0
  · unfold Dat.before; rw [hf, if_neg Bool.false_ne_true, if_pos ht]
  · rw [Dat.before_of_pos _ 6 t ht hf, if_pos (flush0_6 _)]

/-- The index maps, decided over the grid: each clipped window sits at block `(0, t)`. -/
theorem idx_facts : ∀ t : Fin cfg0.N,
    win0_0.index t (0 : Fin 2) = 0 ∧ win0_0.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- The cut sizes, decided over the grid: along the rows no window is cut; along the columns all five are cut alike. -/
theorem xsize_facts : ∀ t : Fin cfg0.N,
    win0_0.xsize (grid0.coords t) (0 : Fin 2) = 512
    ∧ win0_3.xsize (grid0.coords t) (0 : Fin 2) = 1
    ∧ win0_4.xsize (grid0.coords t) (0 : Fin 2) = 1
    ∧ win0_5.xsize (grid0.coords t) (0 : Fin 2) = 1
    ∧ win0_0.xsize (grid0.coords t) (1 : Fin 2) = win0_6.xsize (grid0.coords t) (1 : Fin 2)
    ∧ win0_3.xsize (grid0.coords t) (1 : Fin 2) = win0_6.xsize (grid0.coords t) (1 : Fin 2)
    ∧ win0_4.xsize (grid0.coords t) (1 : Fin 2) = win0_6.xsize (grid0.coords t) (1 : Fin 2)
    ∧ win0_5.xsize (grid0.coords t) (1 : Fin 2) = win0_6.xsize (grid0.coords t) (1 : Fin 2) :=
  (by decide +kernel : ∀ t : Fin grid0.N, _)

/-- The two whole-array windows sit at block zero on every axis. -/
theorem idx_whole : ∀ t : Fin cfg0.N,
    win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The transposed activations' block is the whole array. -/
theorem iblk_1 (c : Dev nD) (t : Fin cfg0.N) : iblk m c 1 t = V m c main_v1 := by
  obtain ⟨e0, e1, e2, -, -⟩ := idx_whole t
  funext y
  show V m c main_v1 ((win0_1.blk t).view.emb y) = V m c main_v1 y
  congr 1; funext a; apply Fin.ext
  match a with
  | ⟨0, _⟩ => show win0_1.index t (0 : Fin 3) * 8 + 1 * (y 0).val = (y 0).val; rw [e0]; omega
  | ⟨1, _⟩ => show win0_1.index t (1 : Fin 3) * 32 + 1 * (y 1).val = (y 1).val; rw [e1]; omega
  | ⟨2, _⟩ => show win0_1.index t (2 : Fin 3) * 512 + 1 * (y 2).val = (y 2).val; rw [e2]; omega

/-- The row sums' block is the whole array. -/
theorem iblk_2 (c : Dev nD) (t : Fin cfg0.N) : iblk m c 2 t = V m c main_v3 := by
  obtain ⟨-, -, -, e0, e1⟩ := idx_whole t
  funext y
  show V m c main_v3 ((win0_2.blk t).view.emb y) = V m c main_v3 y
  congr 1; funext a; apply Fin.ext
  match a with
  | ⟨0, _⟩ => show win0_2.index t (0 : Fin 2) * 32 + 1 * (y 0).val = (y 0).val; rw [e0]; omega
  | ⟨1, _⟩ => show win0_2.index t (1 : Fin 2) * 1 + 1 * (y 1).val = (y 1).val; rw [e1]; omega

/-- Entry `(r, q)` of the packed-word tile at point `t`, when column `q` is inside the part the transfer moves, is
    entry `(r, 1408 t + q)` of the packed-word array. -/
theorem col_0 (c : Dev nD) (t : Fin cfg0.N) (d : win0_0.block.Idx → Elt Ideal win0_0.elt) (r : Fin 512) (q : Fin 1408) (q' : Fin 11008)
    (hq : q.val < win0_6.xsize (grid0.coords t) (1 : Fin 2)) (hq' : q'.val = t.val * 1408 + q.val) :
    win0_0.fill (grid0.coords t) d (iblk m c 0 t) (ix2 r q) = V m c main_arg1 (ix2 r q') := by
  obtain ⟨i00, i01, -⟩ := idx_facts t
  obtain ⟨x0, -, -, -, x1, -⟩ := xsize_facts t
  have hm : ∀ a, ((ix2 r q : win0_0.block.Idx) a).val < win0_0.xsize (grid0.coords t) a := fun a =>
    match a with
    | ⟨0, _⟩ => by show r.val < win0_0.xsize (grid0.coords t) (0 : Fin 2); rw [x0]; exact r.isLt
    | ⟨1, _⟩ => by show q.val < win0_0.xsize (grid0.coords t) (1 : Fin 2); rw [x1]; exact hq
  have hj : (ix2 r q : win0_0.block.Idx)
      = win0_0.xinj (grid0.coords t) (fun a => ⟨((ix2 r q : win0_0.block.Idx) a).val, hm a⟩) :=
    funext fun a => Fin.ext rfl
  rw [hj, Window.fill_xinj]
  show V m c main_arg1 ((win0_0.blk t).view.emb _) = V m c main_arg1 (ix2 r q')
  congr 1; funext a; apply Fin.ext
  match a with
  | ⟨0, _⟩ => show win0_0.index t (0 : Fin 2) * 512 + 1 * r.val = r.val; rw [i00]; omega
  | ⟨1, _⟩ => show win0_0.index t (1 : Fin 2) * 1408 + 1 * q.val = q'.val; rw [i01, hq']; omega

/-- Column `q` of the scale tile at point `t`, when inside the part the transfer moves, is column `1408 t + q` of the row. -/
theorem col_3 (c : Dev nD) (t : Fin cfg0.N) (d : win0_3.block.Idx → Elt Ideal win0_3.elt) (q : Fin 1408) (q' : Fin 11008)
    (hq : q.val < win0_6.xsize (grid0.coords t) (1 : Fin 2)) (hq' : q'.val = t.val * 1408 + q.val) :
    win0_3.fill (grid0.coords t) d (iblk m c 3 t) (ix2 (0 : Fin 1) q) = V m c main_v4 (ix2 (0 : Fin 1) q') := by
  have hi : win0_3.index t (0 : Fin 2) = 0 ∧ win0_3.index t (1 : Fin 2) = t.val := by
    obtain ⟨-, -, i30, i31, i40, i41, i50, i51, -, -⟩ := idx_facts t
    exact ⟨i30, i31⟩
  have hx : win0_3.xsize (grid0.coords t) (0 : Fin 2) = 1
      ∧ win0_3.xsize (grid0.coords t) (1 : Fin 2) = win0_6.xsize (grid0.coords t) (1 : Fin 2) := by
    obtain ⟨-, x30, x40, x50, -, x31, x41, x51⟩ := xsize_facts t
    exact ⟨x30, x31⟩
  have hm : ∀ a, ((ix2 (0 : Fin 1) q : win0_3.block.Idx) a).val < win0_3.xsize (grid0.coords t) a := fun a =>
    match a with
    | ⟨0, _⟩ => by show (0 : Fin 1).val < win0_3.xsize (grid0.coords t) (0 : Fin 2); rw [hx.1]; exact Nat.zero_lt_one
    | ⟨1, _⟩ => by show q.val < win0_3.xsize (grid0.coords t) (1 : Fin 2); rw [hx.2]; exact hq
  have hj : (ix2 (0 : Fin 1) q : win0_3.block.Idx)
      = win0_3.xinj (grid0.coords t) (fun a => ⟨((ix2 (0 : Fin 1) q : win0_3.block.Idx) a).val, hm a⟩) :=
    funext fun a => Fin.ext rfl
  rw [hj, Window.fill_xinj]
  show V m c main_v4 ((win0_3.blk t).view.emb _) = V m c main_v4 (ix2 (0 : Fin 1) q')
  congr 1; funext a; apply Fin.ext
  match a with
  | ⟨0, _⟩ => show win0_3.index t (0 : Fin 2) * 1 + 1 * (0 : Fin 1).val = (0 : Fin 1).val; rw [hi.1]; rfl
  | ⟨1, _⟩ => show win0_3.index t (1 : Fin 2) * 1408 + 1 * q.val = q'.val; rw [hi.2, hq']; omega

/-- Column `q` of the zero-point tile at point `t`, when inside the part the transfer moves, is column `1408 t + q` of the row. -/
theorem col_4 (c : Dev nD) (t : Fin cfg0.N) (d : win0_4.block.Idx → Elt Ideal win0_4.elt) (q : Fin 1408) (q' : Fin 11008)
    (hq : q.val < win0_6.xsize (grid0.coords t) (1 : Fin 2)) (hq' : q'.val = t.val * 1408 + q.val) :
    win0_4.fill (grid0.coords t) d (iblk m c 4 t) (ix2 (0 : Fin 1) q) = V m c main_v5 (ix2 (0 : Fin 1) q') := by
  have hi : win0_4.index t (0 : Fin 2) = 0 ∧ win0_4.index t (1 : Fin 2) = t.val := by
    obtain ⟨-, -, i30, i31, i40, i41, i50, i51, -, -⟩ := idx_facts t
    exact ⟨i40, i41⟩
  have hx : win0_4.xsize (grid0.coords t) (0 : Fin 2) = 1
      ∧ win0_4.xsize (grid0.coords t) (1 : Fin 2) = win0_6.xsize (grid0.coords t) (1 : Fin 2) := by
    obtain ⟨-, x30, x40, x50, -, x31, x41, x51⟩ := xsize_facts t
    exact ⟨x40, x41⟩
  have hm : ∀ a, ((ix2 (0 : Fin 1) q : win0_4.block.Idx) a).val < win0_4.xsize (grid0.coords t) a := fun a =>
    match a with
    | ⟨0, _⟩ => by show (0 : Fin 1).val < win0_4.xsize (grid0.coords t) (0 : Fin 2); rw [hx.1]; exact Nat.zero_lt_one
    | ⟨1, _⟩ => by show q.val < win0_4.xsize (grid0.coords t) (1 : Fin 2); rw [hx.2]; exact hq
  have hj : (ix2 (0 : Fin 1) q : win0_4.block.Idx)
      = win0_4.xinj (grid0.coords t) (fun a => ⟨((ix2 (0 : Fin 1) q : win0_4.block.Idx) a).val, hm a⟩) :=
    funext fun a => Fin.ext rfl
  rw [hj, Window.fill_xinj]
  show V m c main_v5 ((win0_4.blk t).view.emb _) = V m c main_v5 (ix2 (0 : Fin 1) q')
  congr 1; funext a; apply Fin.ext
  match a with
  | ⟨0, _⟩ => show win0_4.index t (0 : Fin 2) * 1 + 1 * (0 : Fin 1).val = (0 : Fin 1).val; rw [hi.1]; rfl
  | ⟨1, _⟩ => show win0_4.index t (1 : Fin 2) * 1408 + 1 * q.val = q'.val; rw [hi.2, hq']; omega

/-- Column `q` of the bias tile at point `t`, when inside the part the transfer moves, is column `1408 t + q` of the row. -/
theorem col_5 (c : Dev nD) (t : Fin cfg0.N) (d : win0_5.block.Idx → Elt Ideal win0_5.elt) (q : Fin 1408) (q' : Fin 11008)
    (hq : q.val < win0_6.xsize (grid0.coords t) (1 : Fin 2)) (hq' : q'.val = t.val * 1408 + q.val) :
    win0_5.fill (grid0.coords t) d (iblk m c 5 t) (ix2 (0 : Fin 1) q) = V m c main_v6 (ix2 (0 : Fin 1) q') := by
  have hi : win0_5.index t (0 : Fin 2) = 0 ∧ win0_5.index t (1 : Fin 2) = t.val := by
    obtain ⟨-, -, i30, i31, i40, i41, i50, i51, -, -⟩ := idx_facts t
    exact ⟨i50, i51⟩
  have hx : win0_5.xsize (grid0.coords t) (0 : Fin 2) = 1
      ∧ win0_5.xsize (grid0.coords t) (1 : Fin 2) = win0_6.xsize (grid0.coords t) (1 : Fin 2) := by
    obtain ⟨-, x30, x40, x50, -, x31, x41, x51⟩ := xsize_facts t
    exact ⟨x50, x51⟩
  have hm : ∀ a, ((ix2 (0 : Fin 1) q : win0_5.block.Idx) a).val < win0_5.xsize (grid0.coords t) a := fun a =>
    match a with
    | ⟨0, _⟩ => by show (0 : Fin 1).val < win0_5.xsize (grid0.coords t) (0 : Fin 2); rw [hx.1]; exact Nat.zero_lt_one
    | ⟨1, _⟩ => by show q.val < win0_5.xsize (grid0.coords t) (1 : Fin 2); rw [hx.2]; exact hq
  have hj : (ix2 (0 : Fin 1) q : win0_5.block.Idx)
      = win0_5.xinj (grid0.coords t) (fun a => ⟨((ix2 (0 : Fin 1) q : win0_5.block.Idx) a).val, hm a⟩) :=
    funext fun a => Fin.ext rfl
  rw [hj, Window.fill_xinj]
  show V m c main_v6 ((win0_5.blk t).view.emb _) = V m c main_v6 (ix2 (0 : Fin 1) q')
  congr 1; funext a; apply Fin.ext
  match a with
  | ⟨0, _⟩ => show win0_5.index t (0 : Fin 2) * 1 + 1 * (0 : Fin 1).val = (0 : Fin 1).val; rw [hi.1]; rfl
  | ⟨1, _⟩ => show win0_5.index t (1 : Fin 2) * 1408 + 1 * q.val = q'.val; rw [hi.2, hq']; omega

/-- THE PURE CORE. On the part of the result tile that lies inside the array, what the body stores from the six input
    tiles at point `t` is block `t` of the factored form on the whole arrays: an entry reads its own column only, and
    inside the array column `q` of every tile is column `1408 t + q` of its array, whatever the tiles hold past the
    array's end. -/
theorem key (c : Dev nD) (t : Fin cfg0.N) (d0 : win0_0.block.Idx → Elt Ideal win0_0.elt) (d3 : win0_3.block.Idx → Elt Ideal win0_3.elt)
    (d4 : win0_4.block.Idx → Elt Ideal win0_4.elt) (d5 : win0_5.block.Idx → Elt Ideal win0_5.elt) :
    win0_6.cut (grid0.coords t) (bodyOut (F := Ideal) (win0_0.fill (grid0.coords t) d0 (iblk m c 0 t)) (iblk m c 1 t) (iblk m c 2 t)
        (win0_3.fill (grid0.coords t) d3 (iblk m c 3 t)) (win0_4.fill (grid0.coords t) d4 (iblk m c 4 t))
        (win0_5.fill (grid0.coords t) d5 (iblk m c 5 t)))
      = (win0_6.blk t).view.read (Elt Ideal) (GkV m c) := by
  obtain ⟨-, -, -, -, -, -, -, -, i60, i61⟩ := idx_facts t
  funext j
  rw [bodyOut_eq, iblk_1, iblk_2]
  have hj0 : (j 0).val < 32 := lt_of_lt_of_le (j 0).isLt (win0_6.xsize_le (grid0.coords t) (0 : Fin 2))
  have hj1 : (j 1).val < 1408 := lt_of_lt_of_le (j 1).isLt (win0_6.xsize_le (grid0.coords t) (1 : Fin 2))
  have hq' : t.val * 1408 + (j 1).val < 11008 := by
    have h := (((win0_6.blk t).view.emb j) (1 : Fin 2)).isLt
    change win0_6.index t (1 : Fin 2) * 1408 + 1 * (j 1).val < 11008 at h
    rw [i61] at h; omega
  have hx : win0_6.xinj (grid0.coords t) j = ix2 (⟨(j 0).val, hj0⟩ : Fin 32) (⟨(j 1).val, hj1⟩ : Fin 1408) := by
    funext a; match a with | ⟨0, _⟩ => rfl | ⟨1, _⟩ => rfl
  have he : (win0_6.blk t).view.emb j = ix2 (⟨(j 0).val, hj0⟩ : Fin 32) (⟨t.val * 1408 + (j 1).val, hq'⟩ : Fin 11008) := by
    funext a; apply Fin.ext
    match a with
    | ⟨0, _⟩ => show win0_6.index t (0 : Fin 2) * 32 + 1 * (j 0).val = (j 0).val; rw [i60]; omega
    | ⟨1, _⟩ => show win0_6.index t (1 : Fin 2) * 1408 + 1 * (j 1).val = t.val * 1408 + (j 1).val; rw [i61]; omega
  show Cert.Spec.kerVal 1408 _ _ _ _ _ _ (win0_6.xinj (grid0.coords t) j) = GkV m c ((win0_6.blk t).view.emb j)
  rw [hx, he]
  exact Cert.Spec.kerVal_col _ _ _ _ _ _ _ _ _ _ _ _ _ (fun r => col_0 m c t d0 r _ _ (j 1).isLt rfl)
    (col_3 m c t d3 _ _ (j 1).isLt rfl) (col_4 m c t d4 _ _ (j 1).isLt rfl) (col_5 m c t d5 _ _ (j 1).isLt rfl)

/-- The library's body obligation at every point, every clipped window stated on the part its transfers move. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5, before_6 m c t d6]
  iapply (sound_body (F := Ideal) c Set.univ (grid0.coords t) _ _ _ _ _ _ _ _ _ _ _ _ _ _
    (win0_0.fill (grid0.coords t) d0 (iblk m c 0 t)) (iblk m c 1 t) (iblk m c 2 t)
    (win0_3.fill (grid0.coords t) d3 (iblk m c 3 t)) (win0_4.fill (grid0.coords t) d4 (iblk m c 4 t))
    (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  -- on the part a transfer moves, each clipped input buffer still holds its block
  have h0 : win0_0.cut (grid0.coords t) ((dats m 0 c).after 0 t) = iblk m c 0 t := win0_0.cut_fill _ _ _
  have h3 : win0_3.cut (grid0.coords t) ((dats m 0 c).after 3 t) = iblk m c 3 t := win0_3.cut_fill _ _ _
  have h4 : win0_4.cut (grid0.coords t) ((dats m 0 c).after 4 t) = iblk m c 4 t := win0_4.cut_fill _ _ _
  have h5 : win0_5.cut (grid0.coords t) ((dats m 0 c).after 5 t) = iblk m c 5 t := win0_5.cut_fill _ _ _
  -- and the result buffer holds, there, the block of the whole-array factored form
  have h6 := (key m c t d0 d3 d4 d5).trans (flushed6 m c t).symm
  isplitl [H0]
  · iexists d0
    change _ ⊢ owns (c : Thread nD τ) (stage0_0 (cfg0.slots t 0)) fullShare (win0_0.fill (grid0.coords t) d0 (win0_0.cut (grid0.coords t) ((dats m 0 c).after 0 t)))
    rw [h0]
  isplitl [H1]; · iexact H1
  isplitl [H2]; · iexact H2
  isplitl [H3]
  · iexists d3
    change _ ⊢ owns (c : Thread nD τ) (stage0_3 (cfg0.slots t 3)) fullShare (win0_3.fill (grid0.coords t) d3 (win0_3.cut (grid0.coords t) ((dats m 0 c).after 3 t)))
    rw [h3]
  isplitl [H4]
  · iexists d4
    change _ ⊢ owns (c : Thread nD τ) (stage0_4 (cfg0.slots t 4)) fullShare (win0_4.fill (grid0.coords t) d4 (win0_4.cut (grid0.coords t) ((dats m 0 c).after 4 t)))
    rw [h4]
  isplitl [H5]
  · iexists d5
    change _ ⊢ owns (c : Thread nD τ) (stage0_5 (cfg0.slots t 5)) fullShare (win0_5.fill (grid0.coords t) d5 (win0_5.cut (grid0.coords t) ((dats m 0 c).after 5 t)))
    rw [h5]
  · iexists _
    change _ ⊢ owns (c : Thread nD τ) (stage0_6 (cfg0.slots t 6)) fullShare (win0_6.fill (grid0.coords t) _ (win0_6.cut (grid0.coords t) ((dats m 0 c).after 6 t)))
    rw [win0_6.fill_congr_cut (grid0.coords t) h6]

end Cert.KernelIdeal.Hand

end
-- ==== Proof.KI.Run.lean ====
import proofs.«408666_j44702019617444_3_alg».proof.Proof.KI.Oblig
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The frame run: every weakly fair execution terminates, every array of the pipeline ends at what the library computes
    from the proof data, every other unscoped buffer as the region found it. -/
theorem run_main : θ_run defs (onTc (τ := τ) (main (F := Ideal))) (s₀ m ρ) (Pipeline.FramePost cfgs (dats m) 0 (V m)) := by
  exact Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The result window's index map and cut sizes over the grid: tile `t` starts at row 0 and column `1408·t`, has all 32
    rows, and 1408 columns, but for the last tile, cut to the 1152 columns left in the array. -/
theorem tile_facts6 : ∀ t : Fin cfg0.N, win0_6.index t (0 : Fin 2) = 0 ∧ win0_6.index t (1 : Fin 2) = t.val
    ∧ win0_6.xsize (grid0.coords t) (0 : Fin 2) = 32
    ∧ win0_6.xsize (grid0.coords t) (1 : Fin 2) = if t.val = 7 then 1152 else 1408 :=
  (by decide +kernel : ∀ t : Fin grid0.N, _)

/-- An index of the result array lies in tile `t` iff each coordinate lies in the tile's (cut) range on its axis. -/
theorem mem_tile6 (t : Fin cfg0.N) (i : S32x11008.Idx) :
    i ∈ ((cfg0.win 6).blk t).view.set ↔ ∀ a : Fin 2, win0_6.index t a * S32x1408.size a ≤ (i a).val
      ∧ (i a).val < win0_6.index t a * S32x1408.size a + win0_6.xsize (grid0.coords t) a := by
  show i ∈ ((View.whole main_v7).slice (win0_6.rect t)).set ↔ _
  rw [View.set_slice_whole, Rect.mem_set_unit]
  exact Iff.rfl

/-- The eight column tiles (the last one cut at the array's end) cover the result array: it ends at `GkV`. -/
theorem final6 (c : Dev nD) : (dats m 0 c).arrAt 6 cfg0.N = GkV m c := by
  refine (dats m 0 c).arrAt_eq_of_cover 6 (GkV m c) (fun t _ => flushed6 m c t) fun i => ?_
  have h0 : (i 0).val < 32 := (i 0).isLt
  have h1 : (i 1).val < 11008 := (i 1).isLt
  -- column `q` lies in tile `q / 1408`; tiles 0‥6 hold 1408 columns, tile 7 the last 1152 (7·1408 + 1152 = 11008)
  obtain ⟨t, ht⟩ : ∃ t : Fin cfg0.N, t.val = (i 1).val / 1408 :=
    ⟨⟨(i 1).val / 1408, by rw [show cfg0.N = 8 from N_0]; omega⟩, rfl⟩
  obtain ⟨e0, e1, e2, e3⟩ := tile_facts6 t
  refine ⟨t, flush0_6 t, ?_⟩
  rw [mem_tile6]
  intro a
  match a with
  | ⟨0, _⟩ =>
    show win0_6.index t (0 : Fin 2) * 32 ≤ (i 0).val
      ∧ (i 0).val < win0_6.index t (0 : Fin 2) * 32 + win0_6.xsize (grid0.coords t) (0 : Fin 2)
    rw [e0, e2]; omega
  | ⟨1, _⟩ =>
    show win0_6.index t (1 : Fin 2) * 1408 ≤ (i 1).val
      ∧ (i 1).val < win0_6.index t (1 : Fin 2) * 1408 + win0_6.xsize (grid0.coords t) (1 : Fin 2)
    rw [e1, e3]; split <;> omega

open Idealize.ShloMosaic.ValueIdx (ix1 ix2 ix3)

/-- A vector reshaped to a one-row matrix reads, at `(0, q)`, the vector at `q`: both at row-major position `q`. -/
theorem reshape_row (v : S11008.Idx → EReal) (h : S11008.ShapeCasts S1x11008) :
    shapeCast S1x11008 v h = Cert.Spec.row v := by
  funext y
  show shapeCast S1x11008 v h y = v (ix1 (⟨(y 1).val, (y 1).isLt⟩ : Fin 11008))
  refine shapeCast_apply v h y _ ?_
  rw [Shape.rowMajor_val_one, Shape.rowMajor_val_two]
  have h0 : (y 0).val < 1 := (y 0).isLt
  show (y 1).val = (y 0).val * 11008 + (y 1).val
  omega

/-- The activations reshaped `[32, 4096] → [32, 512, 8]` and transposed by `[2, 0, 1]`: the result at `(j, p, w)` is the
    reshaped array at `(p, w, j)`, at row-major position `(p·512 + w)·8 + j = p·4096 + (8w + j)`: `x (p, 8w + j)`. -/
theorem transpose_reshape_xt (x : S32x4096.Idx → EReal) (h₁ : S32x4096.ShapeCasts S32x512x8)
    (h₂ : S32x512x8.Transposes [2, 0, 1] S8x32x512) :
    transpose S8x32x512 [2, 0, 1] (shapeCast S32x512x8 x h₁) h₂ = Cert.Spec.xt x := by
  funext y
  have hj : (y 0).val < 8 := (y 0).isLt
  have hp : (y 1).val < 32 := (y 1).isLt
  have hw : (y 2).val < 512 := (y 2).isLt
  -- result axis `b` is source axis `perm[b]`: source axes 2, 0, 1 carry the result's coordinates 0, 1, 2
  refine (transpose_apply [2, 0, 1] (shapeCast S32x512x8 x h₁) h₂ y
    (ix3 (⟨(y 1).val, hp⟩ : Fin 32) (⟨(y 2).val, hw⟩ : Fin 512) (⟨(y 0).val, hj⟩ : Fin 8)) ?_).trans ?_
  · intro b
    match b with
    | ⟨0, _⟩ => rfl
    | ⟨1, _⟩ => rfl
    | ⟨2, _⟩ => rfl
  · show shapeCast S32x512x8 x h₁ _
      = x (ix2 (⟨(y 1).val, (y 1).isLt⟩ : Fin 32) (⟨(y 2).val * 8 + (y 0).val, _⟩ : Fin 4096))
    refine shapeCast_apply x h₁ _ _ ?_
    rw [Shape.rowMajor_val_two, Shape.rowMajor_val_three]
    show (y 1).val * 4096 + ((y 2).val * 8 + (y 0).val) = ((y 1).val * 512 + (y 2).val) * 8 + (y 0).val
    omega

/-- The host's sum of the activations over their second axis, started at the zero constant, broadcast to a `[32, 1]`
    column: at `(p, 0)` it is `0 + ∑ₖ x (p, k)`, the row sum. -/
theorem rowsum_col_xs (x : S32x4096.Idx → EReal) (h₁ : S32x4096.ReducesTo [1] S32) (h₀ : 0 < S_.numel)
    (h₂ : S32.BroadcastsInDim S32x1 (![0] : Fin 1 → Fin S32x1.rank)) :
    broadcastInDim S32x1 ![0] h₂ (Host.reduceAdd (F := Ideal) x (constant S_ .f32 0x00000000#32) h₁ h₀)
      = Cert.Spec.xs x := by
  funext y
  have hp : (y 0).val < 32 := (y 0).isLt
  refine (broadcastInDim_apply ![0] h₂ _ y (ix1 (⟨(y 0).val, hp⟩ : Fin 32)) ?_).trans ?_
  · intro a
    match a with
    | ⟨0, _⟩ => rfl
  · have hR : S32x4096.Reduces [1] S32 := by decide
    show Ideal.hostReduceAdd h₁ x (Ideal.ofBits .f32 0x00000000#32) (ix1 (⟨(y 0).val, hp⟩ : Fin 32))
      = ∑ k : Fin 4096, x (ix2 (⟨(y 0).val, (y 0).isLt⟩ : Fin 32) k)
    rw [Ideal.hostReduceAdd_single h₁ hR, Ideal.ofBits_zero_f32, zero_add]
    refine Finset.sum_congr rfl fun k _ => congrArg x ?_
    funext a; apply Fin.ext
    match a with
    | ⟨0, _⟩ => rfl
    | ⟨1, _⟩ => rfl

open Idealize.ShloMosaic.StableHlo in
/-- The arrays the region finds are the wrapper's re-layouts of the arguments: the transposed activations, the row sums as
    a column, and the three vectors as rows. So `GkV` is the kernel's function of the five arguments. -/
theorem GkV_eq (c : Dev nD) : GkV m c = Cert.Spec.Gker (m ((c : Thread nD τ).loc main_arg0)) (m ((c : Thread nD τ).loc main_arg1))
    (m ((c : Thread nD τ).loc main_arg2)) (m ((c : Thread nD τ).loc main_arg3)) (m ((c : Thread nD τ).loc main_arg4)) := by
  -- each array the region finds, as the host operations' term over the launch contents, then read index by index
  have e1 : (V m c main_v1 : S8x32x512.Idx → EReal) = Cert.Spec.xt (m ((c : Thread nD τ).loc main_arg0)) := by
    have e : (V m c main_v1 : S8x32x512.Idx → EReal)
        = transpose S8x32x512 [2, 0, 1] (shapeCast S32x512x8 (m ((c : Thread nD τ).loc main_arg0))
            shapeCasts_S32x4096_S32x512x8) transposes_S32x512x8_S8x32x512_2_0_1 := by
      dsimp only [Gen.V, Gen.hostOps0]; after_results; rfl
    rw [e]; exact transpose_reshape_xt _ _ _
  have e3 : (V m c main_v3 : S32x1.Idx → EReal) = Cert.Spec.xs (m ((c : Thread nD τ).loc main_arg0)) := by
    have e : (V m c main_v3 : S32x1.Idx → EReal)
        = broadcastInDim S32x1 ![0] bcast_S32_S32x1_0 (Host.reduceAdd (F := Ideal) (m ((c : Thread nD τ).loc main_arg0))
            (constant S_ .f32 0x00000000#32) reducesTo_S32x4096_S32_d1 h_S_) := by
      dsimp only [Gen.V, Gen.hostOps0]; after_results
    rw [e]; exact rowsum_col_xs _ _ _ _
  have e4 : (V m c main_v4 : S1x11008.Idx → EReal) = Cert.Spec.row (m ((c : Thread nD τ).loc main_arg2)) := by
    have e : (V m c main_v4 : S1x11008.Idx → EReal)
        = shapeCast S1x11008 (m ((c : Thread nD τ).loc main_arg2)) shapeCasts_S11008_S1x11008 := by
      dsimp only [Gen.V, Gen.hostOps0]; after_results; rfl
    rw [e]; exact reshape_row _ _
  have e5 : (V m c main_v5 : S1x11008.Idx → EReal) = Cert.Spec.row (m ((c : Thread nD τ).loc main_arg3)) := by
    have e : (V m c main_v5 : S1x11008.Idx → EReal)
        = shapeCast S1x11008 (m ((c : Thread nD τ).loc main_arg3)) shapeCasts_S11008_S1x11008 := by
      dsimp only [Gen.V, Gen.hostOps0]; after_results; rfl
    rw [e]; exact reshape_row _ _
  have e6 : (V m c main_v6 : S1x11008.Idx → EReal) = Cert.Spec.row (m ((c : Thread nD τ).loc main_arg4)) := by
    have e : (V m c main_v6 : S1x11008.Idx → EReal)
        = shapeCast S1x11008 (m ((c : Thread nD τ).loc main_arg4)) shapeCasts_S11008_S1x11008 := by
      dsimp only [Gen.V, Gen.hostOps0]; after_results; rfl
    rw [e]; exact reshape_row _ _
  unfold GkV Cert.Spec.Gker
  rw [e1, e3, e4, e5, e6, V_main_arg1 m c]

/-- The idealized kernel's run with its result named: the result array ends at the kernel's function of the arguments, the
    arguments unchanged. -/
theorem value_run : θ_run defs (onTc (τ := τ) (main (F := Ideal))) ⟨m, fun _ => 0, ρ⟩ (fun r => ∀ c : Dev nD,
      r.2.mem ((c.tc : Thread nD τ).loc main_v7) = Cert.Spec.Gker (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- the result is the last window's array; the packed words are the first window's array, an input, so unchanged; the other
  -- four arguments are staged by no window, so they are as the region found them, and no host operation wrote them
  (θ_run defs _ _).mono (fun _ h c => ⟨((h c).1 6).trans ((final6 m c).trans (GkV_eq m c)),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.K.BodyOut.lean ====
import proofs.«408666_j44702019617444_3_alg».proof.Proof.Gen.Kernel.Skeleton
import Idealize.ShloMosaic.Lib.ValueIdx

/-!
What one run of the kernel body stores, as ONE pure function of what the staging buffers hold.

The body reads the packed-word tile in four row bands of 128 words (`lq c`), and for each band the eight nibble
planes of the transposed activations (`lx c j`: plane `j`, all 32 tokens, words `128c … 128c + 127`); it reads the
scale, zero-point and bias rows and the row-sum column whole. `bodyOut` threads those reads through the body's
arithmetic in program order: per band eight (shift, mask, convert, matrix product) steps added left to right, the
four bands added left to right, then `acc · scale − rowsum · zero + bias`.
-/

noncomputable section

namespace Cert.Kernel.Hand

open Idealize.ShloMosaic Idealize.ShloMosaic.ValueIdx Cert.Kernel Cert.Kernel.Gen

variable {F : FTy → Type} [FloatOps F]

/-- Row band `c` of the packed-word tile: rows `128c … 128c + 127`, every column. -/
def lq (c : Fin 4) (X0 : Vec F S512x1408 .i32) : Vec F S128x1408 .i32 := fun y =>
  X0 (ix2 (⟨128 * c.val + (y 0).val, by have h : (y 0).val < 128 := (y 0).isLt; have := c.isLt; omega⟩ : Fin 512)
    (⟨(y 1).val, (y 1).isLt⟩ : Fin 1408))

/-- Plane `j` of the transposed activations on band `c`: all 32 tokens, words `128c … 128c + 127`. -/
def lx (c : Fin 4) (j : Fin 8) (X1 : Vec F S8x32x512 .f32) : Vec F S1x32x128 .f32 := fun y =>
  X1 (ix3 j (⟨(y 1).val, (y 1).isLt⟩ : Fin 32)
    (⟨128 * c.val + (y 2).val, by have h : (y 2).val < 128 := (y 2).isLt; have := c.isLt; omega⟩ : Fin 512))

/-- The value the body stores into the result tile, from the contents of the six input staging buffers. -/
def bodyOut (X0 : Vec F S512x1408 .i32) (X1 : Vec F S8x32x512 .f32) (X2 : Vec F S32x1 .f32)
    (X3 X4 X5 : Vec F S1x1408 .f32) : FVec F S32x1408 .f32 :=
  -- band 0
  let v4 := lq 0 X0
  let v35 := k0_pay3 v4 (lx 0 0 X1) (lx 0 1 X1) (lx 0 2 X1)
  let v75 := k0_pay5 v4 v35 (k0_pay4 v4) (lx 0 3 X1) (lx 0 4 X1) (lx 0 5 X1) (lx 0 6 X1)
  let v86 := k0_pay7 (k0_pay2 (F := F)) v75 (k0_pay6 v4) (lx 0 7 X1)
  -- band 1
  let v90 := lq 1 X0
  let v111 := k0_pay8 v90 (lx 1 0 X1) (lx 1 1 X1)
  let v151 := k0_pay10 v90 v111 (k0_pay9 v90) (lx 1 2 X1) (lx 1 3 X1) (lx 1 4 X1) (lx 1 5 X1)
  let v172 := k0_pay12 v86 v90 v151 (k0_pay11 v90) (lx 1 6 X1) (lx 1 7 X1)
  -- band 2
  let v176 := lq 2 X0
  let v187 := k0_pay13 v176 (lx 2 0 X1)
  let v227 := k0_pay16 v176 v187 (k0_pay14 v176) (k0_pay15 (lx 2 1 X1)) (constant S32x1408 .f32 0x00000000#32)
    (lx 2 2 X1) (lx 2 3 X1) (lx 2 4 X1)
  let v258 := k0_pay19 v172 v176 v227 (k0_pay17 v176) (k0_pay18 (lx 2 5 X1)) (constant S32x1408 .f32 0x00000000#32)
    (lx 2 6 X1) (lx 2 7 X1)
  -- band 3
  let v262 := lq 3 X0
  let v273 := k0_pay20 v262 (lx 3 0 X1)
  let v313 := k0_pay22 v262 v273 (k0_pay21 v262) (lx 3 1 X1) (lx 3 2 X1) (lx 3 3 X1) (lx 3 4 X1)
  let v344 := k0_pay24 v258 v262 v313 (k0_pay23 v262) (lx 3 5 X1) (lx 3 6 X1) (lx 3 7 X1)
  -- scale, zero point, bias, row sums
  k0_pay1 v344 (k0_pay25 X3) (k0_pay26 X4) (k0_pay27 X5) (k0_pay28 X2)

end Cert.Kernel.Hand

end
-- ==== Proof.K.Body.lean ====
import proofs.«408666_j44702019617444_3_alg».proof.Proof.K.BodyOut
import proofs.«408666_j44702019617444_3_alg».proof.Proof.Gen.Kernel.Launch
import proofs.«408666_j44702019617444_3_alg».proof.Proof.Gen.Kernel.Points
import Idealize.ShloMosaic.Lib.Pipeline.Kit
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Two rank-3 indices with the same three coordinates are equal. -/
private theorem idx_ext3 {n : Fin 3 → ℕ} {x y : (a : Fin 3) → Fin (n a)} (h0 : (x 0 : ℕ) = y 0) (h1 : (x 1 : ℕ) = y 1)
    (h2 : (x 2 : ℕ) = y 2) : x = y :=
  funext fun a => Fin.ext (by match a with | ⟨0, _⟩ => exact h0 | ⟨1, _⟩ => exact h1 | ⟨2, _⟩ => exact h2)

/-- A load of 128 rows from row `r = 128 c` of the packed-word tile, every column: entry `y` of what is read is the
    tile's entry at row `r + y₀`, column `y₁`, which is row band `c` of the tile. -/
private theorem readAt_band {sg : RefSig} {κ : Kind} {sp : Space} (v : View sg κ sp S512x1408 .i32)
    (f : v.ty.Contents (Elt F)) (c : Fin 4) (r : Nat) (hr : r = 128 * c.val)
    (inb : ∀ a, (![r, 0] : Fin S512x1408.rank → Nat) a + S128x1408.size a ≤ S512x1408.size a) :
    v.readAt (Elt F) (Rect.unit (s := S512x1408) ![r, 0] S128x1408.size inb).toLoadRect f = lq c (v.read (Elt F) f) := by
  subst hr
  funext y
  show v.read (Elt F) f _ = v.read (Elt F) f _
  refine congrArg (v.read (Elt F) f) (Shape.idx_ext₂ ?_ ?_)
  · show 128 * c.val + 1 * (y 0).val = 128 * c.val + (y 0).val; omega
  · show 0 + 1 * (y 1).val = (y 1).val; omega

/-- A load of one nibble plane `p = j` of the transposed activations, all 32 tokens, 128 words from word `r = 128 c`:
    entry `y` of what is read is the activations' entry at plane `p`, token `y₁`, word `r + y₂`. -/
private theorem readAt_plane {sg : RefSig} {κ : Kind} {sp : Space} (v : View sg κ sp S8x32x512 .f32)
    (f : v.ty.Contents (Elt F)) (c : Fin 4) (j : Fin 8) (p r : Nat) (hp : p = j.val) (hr : r = 128 * c.val)
    (inb : ∀ a, (![p, 0, r] : Fin S8x32x512.rank → Nat) a + S1x32x128.size a ≤ S8x32x512.size a) :
    v.readAt (Elt F) (Rect.unit (s := S8x32x512) ![p, 0, r] S1x32x128.size inb).toLoadRect f = lx c j (v.read (Elt F) f) := by
  subst hp hr
  funext y
  show v.read (Elt F) f _ = v.read (Elt F) f _
  refine congrArg (v.read (Elt F) f) (idx_ext3 ?_ ?_ ?_)
  · show j.val + 1 * (y 0).val = j.val
    have h : (y 0).val < 1 := (y 0).isLt
    omega
  · show 0 + 1 * (y 1).val = (y 1).val; omega
  · show 128 * c.val + 1 * (y 2).val = 128 * c.val + (y 2).val; omega

/-- A load of a whole buffer (zero offsets, the buffer's own extents) reads the buffer's contents. -/
private theorem readAt_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

-- The rectangles the run reads through carry their in-bounds evidence stated over the offsets as the program computes
-- them (a product of two 32-bit words, cast to an index); the load equations above state the same rectangles at the
-- offsets' values (0, 128, 256, 384). The two statements of one inequality agree by evaluating that arithmetic.
set_option backward.isDefEq.respectTransparency.types false in
set_option maxHeartbeats 1000000 in
/-- One run of the body on any whole staging memrefs of the seven windows: it only reads the six input buffers, which keep
    their contents, and overwrites the whole result buffer (whatever it held) with `bodyOut` of what the six hold. -/
theorem sound_body (c : Dev nD) (E : Set ℕ) (i : grid0.Coords)
    (arg1 : Memref sig .tc .vmem S512x1408 .i32) (harg1 : arg1.IsWhole) (arg2 : Memref sig .tc .vmem S8x32x512 .f32) (harg2 : arg2.IsWhole)
    (arg3 : Memref sig .tc .vmem S32x1 .f32) (harg3 : arg3.IsWhole) (arg4 : Memref sig .tc .vmem S1x1408 .f32) (harg4 : arg4.IsWhole)
    (arg5 : Memref sig .tc .vmem S1x1408 .f32) (harg5 : arg5.IsWhole) (arg6 : Memref sig .tc .vmem S1x1408 .f32) (harg6 : arg6.IsWhole)
    (arg7 : Memref sig .tc .vmem S32x1408 .f32) (harg7 : arg7.IsWhole)
    (X0 : Vec F S512x1408 .i32) (X1 : Vec F S8x32x512 .f32) (X2 : Vec F S32x1 .f32) (X3 X4 X5 : Vec F S1x1408 .f32)
    (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare X4 ∗ owns (c : Thread nD τ) arg6 fullShare X5
          ∗ (∃ d, owns (c : Thread nD τ) arg7 fullShare d)
          ∗ (iprop(owns (c : Thread nD τ) arg1 fullShare X0 ∗ owns (c : Thread nD τ) arg2 fullShare X1 ∗ owns (c : Thread nD τ) arg3 fullShare X2
                  ∗ owns (c : Thread nD τ) arg4 fullShare X3 ∗ owns (c : Thread nD τ) arg5 fullShare X4 ∗ owns (c : Thread nD τ) arg6 fullShare X5
                  ∗ owns (c : Thread nD τ) arg7 fullShare (bodyOut X0 X1 X2 X3 X4 X5)) -∗ K ⟨⟩))
      ⊢ wp frame (wpE (defs₀ (F := F)) Variants.none c none) E
          (cc0__dequant_matmul_kernel i arg1 harg1 arg2 harg2 arg3 harg3 arg4 harg4 arg5 harg5 arg6 harg6 arg7 harg7) K := by
  simp only [cc0__dequant_matmul_kernel_eq_skeleton]; unfold cc0__dequant_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the run: forty loads of the six input buffers, which keep their contents, and one write of the whole result buffer
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- what the result buffer reads after its one whole write is the written value
  have hz : (![0, 0] : Fin 2 → Nat) = fun _ => 0 := by funext a; fin_cases a <;> rfl
  rw [View.read_writes_eq_canon _ _ _
    (fun y => ⟨_, List.mem_singleton_self _, View.mem_set_unit_zero hz inb_S32x1408_S32x1408_0_0 y⟩)]
  rw [View.canon_unit_zero hz]
  sl_unfold_run_names
  -- each band load of the packed words is a row band, each plane load a plane on a band, each whole load the contents
  rw [readAt_band arg1.view f0 0 0 rfl, readAt_band arg1.view f0 1 128 rfl, readAt_band arg1.view f0 2 256 rfl,
    readAt_band arg1.view f0 3 384 rfl]
  rw [readAt_plane arg2.view f1 0 0 0 0 rfl rfl, readAt_plane arg2.view f1 0 1 1 0 rfl rfl,
    readAt_plane arg2.view f1 0 2 2 0 rfl rfl, readAt_plane arg2.view f1 0 3 3 0 rfl rfl,
    readAt_plane arg2.view f1 0 4 4 0 rfl rfl, readAt_plane arg2.view f1 0 5 5 0 rfl rfl,
    readAt_plane arg2.view f1 0 6 6 0 rfl rfl, readAt_plane arg2.view f1 0 7 7 0 rfl rfl]
  rw [readAt_plane arg2.view f1 1 0 0 128 rfl rfl, readAt_plane arg2.view f1 1 1 1 128 rfl rfl,
    readAt_plane arg2.view f1 1 2 2 128 rfl rfl, readAt_plane arg2.view f1 1 3 3 128 rfl rfl,
    readAt_plane arg2.view f1 1 4 4 128 rfl rfl, readAt_plane arg2.view f1 1 5 5 128 rfl rfl,
    readAt_plane arg2.view f1 1 6 6 128 rfl rfl, readAt_plane arg2.view f1 1 7 7 128 rfl rfl]
  rw [readAt_plane arg2.view f1 2 0 0 256 rfl rfl, readAt_plane arg2.view f1 2 1 1 256 rfl rfl,
    readAt_plane arg2.view f1 2 2 2 256 rfl rfl, readAt_plane arg2.view f1 2 3 3 256 rfl rfl,
    readAt_plane arg2.view f1 2 4 4 256 rfl rfl, readAt_plane arg2.view f1 2 5 5 256 rfl rfl,
    readAt_plane arg2.view f1 2 6 6 256 rfl rfl, readAt_plane arg2.view f1 2 7 7 256 rfl rfl]
  rw [readAt_plane arg2.view f1 3 0 0 384 rfl rfl, readAt_plane arg2.view f1 3 1 1 384 rfl rfl,
    readAt_plane arg2.view f1 3 2 2 384 rfl rfl, readAt_plane arg2.view f1 3 3 3 384 rfl rfl,
    readAt_plane arg2.view f1 3 4 4 384 rfl rfl, readAt_plane arg2.view f1 3 5 5 384 rfl rfl,
    readAt_plane arg2.view f1 3 6 6 384 rfl rfl, readAt_plane arg2.view f1 3 7 7 384 rfl rfl]
  rw [readAt_whole arg4.view f3 hz, readAt_whole arg5.view f4 hz, readAt_whole arg6.view f5 hz,
    readAt_whole arg3.view f2 hz]
  rfl

end Cert.Kernel.Hand

end
-- ==== Proof.K.Frame.lean ====
import proofs.«408666_j44702019617444_3_alg».proof.Proof.K.Body
import proofs.«408666_j44702019617444_3_alg».proof.Proof.Gen.Kernel.Frame
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-! The frame's proof data and its obligations, under a name space of their own. -/
namespace FrameBits

/-- A word for the part of a staging buffer no transfer moves, and for the forgotten result window: nothing reads it. -/
def padW {e : EltTy} : Elt Bits e := Classical.arbitrary _

/-- The window whose staging contents are forgotten: the result's (window 6). -/
abbrev fgt : Fin cfg0.W → Bool := fun | 0 => false | 1 => false | 2 => false | 3 => false | 4 => false | 5 => false | 6 => true | ⟨_ + 7, h⟩ => absurd h (Nat.not_lt.2 (Nat.le_add_left _ _))

/-- The proof data: the arrays as the region finds them; after the body each input buffer still holds its block (a cut
    block on the part inside the array, a filler word elsewhere); the result window is forgotten, its entry is a filler. -/
def dats (_ : Fin 1) (c : Dev nD) : Dat τ (Elt Bits) Unit ℕ (UR sig nD τ) ℕ cfg0 c where
  A w := V m c (Pipeline.arrRef spec0 w)
  after w t := match w with
    | ⟨0, _⟩ => win0_0.fill (grid0.coords t) (fun _ => padW) (iblk m c 0 t)
    | ⟨1, _⟩ => iblk m c 1 t
    | ⟨2, _⟩ => iblk m c 2 t
    | ⟨3, _⟩ => win0_3.fill (grid0.coords t) (fun _ => padW) (iblk m c 3 t)
    | ⟨4, _⟩ => win0_4.fill (grid0.coords t) (fun _ => padW) (iblk m c 4 t)
    | ⟨5, _⟩ => win0_5.fill (grid0.coords t) (fun _ => padW) (iblk m c 5 t)
    | ⟨6, _⟩ => fun _ => padW
  Φ _ := Pipeline.ΦA spec0 c
  q _ := fullShare
  owed _ := 0

theorem A_eq (c : Dev nD) (w : Fin cfg0.W) : (dats m 0 c).A w = V m c (Pipeline.arrRef spec0 w) := by
  dsimp only [dats]

/-- A clipped input just fetched holds its block on the part inside the array and whatever it held elsewhere. -/
theorem before_0 (c : Dev nD) (t : Fin cfg0.N) (d) :
    (dats m 0 c).before 0 t d = win0_0.fill (grid0.coords t) d (iblk m c 0 t) := by
  unfold Dat.before; rw [if_pos (fetch0_0 t)]; rfl
theorem before_3 (c : Dev nD) (t : Fin cfg0.N) (d) :
    (dats m 0 c).before 3 t d = win0_3.fill (grid0.coords t) d (iblk m c 3 t) := by
  unfold Dat.before; rw [if_pos (fetch0_3 t)]; rfl
theorem before_4 (c : Dev nD) (t : Fin cfg0.N) (d) :
    (dats m 0 c).before 4 t d = win0_4.fill (grid0.coords t) d (iblk m c 4 t) := by
  unfold Dat.before; rw [if_pos (fetch0_4 t)]; rfl
theorem before_5 (c : Dev nD) (t : Fin cfg0.N) (d) :
    (dats m 0 c).before 5 t d = win0_5.fill (grid0.coords t) d (iblk m c 5 t) := by
  unfold Dat.before; rw [if_pos (fetch0_5 t)]; rfl
/-- A whole input fetched once holds its block at every point. -/
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

/-- The library's body obligation with the result window forgotten: the six input buffers arrive holding their blocks (a
    cut block filled out past the array's end by whatever the buffer held), the result buffer holding anything; one run of
    the body leaves the inputs as they were — on the part inside the array their blocks, which is all a cut window's
    obligation states — and the result buffer at contents of which nothing is said. -/
theorem body_obligation (c : Dev nD) : BodyObligationLoose (dats m 0 c) (defs₀ (F := Bits)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  have h0 : (win0 0).cut (grid0.coords t) ((dats m 0 c).after 0 t) = iblk m c 0 t := by
    dsimp only [dats]; exact win0_0.cut_fill _ _ _
  have h3 : (win0 3).cut (grid0.coords t) ((dats m 0 c).after 3 t) = iblk m c 3 t := by
    dsimp only [dats]; exact win0_3.cut_fill _ _ _
  have h4 : (win0 4).cut (grid0.coords t) ((dats m 0 c).after 4 t) = iblk m c 4 t := by
    dsimp only [dats]; exact win0_4.cut_fill _ _ _
  have h5 : (win0 5).cut (grid0.coords t) ((dats m 0 c).after 5 t) = iblk m c 5 t := by
    dsimp only [dats]; exact win0_5.cut_fill _ _ _
  have h1 : (dats m 0 c).after 1 t = iblk m c 1 t := by dsimp only [dats]
  have h2 : (dats m 0 c).after 2 t = iblk m c 2 t := by dsimp only [dats]
  rw [h0, h1, h2, h3, h4, h5]
  iintro ⟨HΦ, Ho, ⟨%d0, H0⟩, ⟨%d1, H1⟩, ⟨%d2, H2⟩, ⟨%d3, H3⟩, ⟨%d4, H4⟩, ⟨%d5, H5⟩, H6⟩
  rw [before_0 m c t d0, before_1 m c t d1, before_2 m c t d2, before_3 m c t d3, before_4 m c t d4, before_5 m c t d5]
  iapply (sound_body (F := Bits) c Set.univ (grid0.coords t) _ _ _ _ _ _ _ _ _ _ _ _ _ _
    (win0_0.fill (grid0.coords t) d0 (iblk m c 0 t)) (iblk m c 1 t) (iblk m c 2 t)
    (win0_3.fill (grid0.coords t) d3 (iblk m c 3 t)) (win0_4.fill (grid0.coords t) d4 (iblk m c 4 t))
    (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexists d0; iexact H0
  isplitl [H1]; · iexact H1
  isplitl [H2]; · iexact H2
  isplitl [H3]; · iexists d3; iexact H3
  isplitl [H4]; · iexists d4; iexact H4
  isplitl [H5]; · iexists d5; iexact H5
  · iexists _; iexact H6

set_option backward.isDefEq.respectTransparency.types false in
/-- The frame run of the word-level kernel on the proof data read relationally, the result window forgotten: every weakly
    fair execution terminates; every input array of the pipeline ends as the region found it, the result array at some
    contents, every other unscoped buffer as the region found it. -/
theorem run_main : θ_run defs (onTc (τ := τ) (main (F := Bits))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => (dats m 0 c).share_full fun _ => rfl)
    (howed := fun _ _ => rfl) (V := V m) (hmain := hmain m Variants.none) (hA := A_eq m) (hΦ := fun _ _ => rfl)

end FrameBits

/-- The word-level kernel runs to the end, faults nowhere and leaves its five argument arrays as launched. Nothing is said of
    the result array: at the word level the matrix unit's term at an entry is a function of the whole right-hand tile, so
    what the last, cut tile's body computes from the words past the array's end is not named, and the frame does not need it
    — the result window's staging contents are forgotten. -/
theorem frame_bits : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- the packed weights are window 0's array, an input the pipeline never writes: it ends at its entry contents; the other
  -- four arguments are staged by no window and bypass the region; no host operation before the region writes any of the five
  exact (θ_run defs _ _).mono (fun _ h c =>
    ⟨((h c).2 main_arg0 (Pipeline.mem_restRefs_of main_arg0 (by decide) (by decide))).trans (V_main_arg0 m c),
      (Pipeline.RDat.FramePost.arr_in h c 0 rfl).trans ((FrameBits.A_eq m c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (FrameBits.run_main m ρ)

end Cert.Kernel.Hand

end
-- ==== Proof.lean ====
/-
  An int4-packed dequantising matmul (32 tokens, 4096 input features packed eight 4-bit values to a word, 11008 output
  features) as a Pallas kernel over column tiles of 1408, against the plain jnp reference.

  The reference dequantises `W (k,n) = s n · q (k,n) − z n` and computes `x · W + b`. The kernel never forms `W`: it
  multiplies `x` with the raw nibbles plane by plane and applies scale, zero point and bias once per tile,
  `(x·q) · s − (∑ₖ x) · z + b`. Over the reals the two agree by distributivity, which is where the precondition (every
  float input finite) is used; over the extended reals without it they would not.

  11008 is not a multiple of 1408: the eighth tile overhangs the arrays by 256 columns, its transfers are cut at the
  arrays' end, and the staging buffers' last 256 columns hold words nothing names there. Every entry of the factored form
  reads only its own column of the packed words, scales, zero points and biases, so on the columns inside the array the
  tile's result does not depend on those words, and the cut write-back drops the rest.

  Modules: Spec (the two forms, column-locality), Algebra (they agree on reals), Finite (the precondition read), RefValue
  (the reference is the plain form), KI/* (the idealized kernel: the body's triple, its stored value, the proof data and
  obligation on clipped windows, the run and the result), K/* (the word-level kernel's frame).
-/
import proofs.«408666_j44702019617444_3_alg».proof.Defs
import proofs.«408666_j44702019617444_3_alg».proof.Proof.Gen.Kernel
import proofs.«408666_j44702019617444_3_alg».proof.Proof.Gen.KernelIdeal
import proofs.«408666_j44702019617444_3_alg».proof.Proof.Gen.ReferenceIdeal
import proofs.«408666_j44702019617444_3_alg».proof.Proof.Gen.Pre_finite_inputs
import proofs.«408666_j44702019617444_3_alg».proof.Proof.Gen.ReferenceIdeal.Run
import proofs.«408666_j44702019617444_3_alg».proof.Proof.Gen.ReferenceIdeal.Read
import proofs.«408666_j44702019617444_3_alg».proof.Proof.Algebra
import proofs.«408666_j44702019617444_3_alg».proof.Proof.Finite
import proofs.«408666_j44702019617444_3_alg».proof.Proof.RefValue
import proofs.«408666_j44702019617444_3_alg».proof.Proof.KI.Run
import proofs.«408666_j44702019617444_3_alg».proof.Proof.K.Frame
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_bits m ρ

theorem frame_ki : Cert.frame_KernelIdeal := fun m ρ _ =>
  (θ_run Cert.KernelIdeal.defs _ _).mono (fun _ h c => (h c).2) (Cert.KernelIdeal.Hand.value_run m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end at one array: the kernel at the factored form of its arguments, the reference at the plain
    form of arguments that agree with them, and on real inputs the forms agree. -/
theorem algebraic : Cert.algebraic_KernelIdeal_ReferenceIdeal := by
  intro m ρ m' ρ' hpre hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefValue.ref_eq, (hagree c).1, (hagree c).2.1, (hagree c).2.2.1,
    (hagree c).2.2.2.1, (hagree c).2.2.2.2]
  obtain ⟨hx, hs, hz, hb⟩ := Cert.Finite.reals_of_pre _ _ _ _ _ (hpre c)
  exact (Cert.Spec.ker_eq_ref _ _ _ _ _ hx hs hz hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
